-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩
abbrev S16384 : Shape := ⟨1, ![16384]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : FVec F S16384x16384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S16384x16384 32 := iotaInDim S16384x16384 32 0
  let main_v20 : IVec S16384x16384 32 := iotaInDim S16384x16384 32 1
  let main_c_6 : IVec S_ 32 := constantI S_ 32 0#32
  let main_v21 : IVec S16384x16384 32 := broadcastInDim S16384x16384 ![] bcast_S_S16384x16384 main_c_6
  let main_v22 : IVec S16384x16384 32 := addi main_v19 main_v21
  let main_v23 : IVec S16384x16384 1 := cmpi .eq main_v22 main_v20
  let main_v24 : FVec F S16384x16384 .f32 := uitofp .f32 main_v23
  let main_v25 : FVec F S16384x16384 .f32 := addf main_arg1 main_v24
  let main_cst_7 : FVec F S_ .f32 := constant S_ .f32 0x00000000#32
  let main_v26 : FVec F S16384 .f32 := (fun x v => Host.reduceAdd x v reducesTo_S16384x16384_S16384_d1 h_S_) main_v25 main_cst_7
  let main_cst_8 : FVec F S_ .f32 := constant S_ .f32 0x00000000#32
  let main_v27 : FVec F S16384 .f32 := broadcastInDim S16384 ![] bcast_S_S16384 main_cst_8
  let main_v28 : IVec S16384 1 := cmpf .ogt main_v26 main_v27
  let main_c_9 : IVec S_ 1 := constantI S_ 1 1#1
  let main_v29 : IVec S_ 1 := (fun x v => Host.reduce IntOp.andi x v reducesTo_S16384_S_d0 h_S_) main_v28 main_c_9
  let main_v30 : IVec S_ 1 := andi main_v18 main_v29
  main_v30

def fn {F : FTy → Type} [FloatOps F] (main_arg0 : FVec F S16384x128 .f32) (main_arg1 : FVec F S16384x16384 .f32) (main_arg2 : FVec F S128x128 .f32) (main_arg3 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S16384x1 : Shape := ⟨2, ![16384, 1]⟩
abbrev S256x16384 : Shape := ⟨2, ![256, 16384]⟩
abbrev S256x1 : Shape := ⟨2, ![256, 1]⟩
abbrev S256 : Shape := ⟨1, ![256]⟩
abbrev S_ : Shape := ⟨0, ![]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩
abbrev S1024x1 : Shape := ⟨2, ![1024, 1]⟩

abbrev nBuf : Space → Nat
  | .hbm => 17
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x1, .f32⟩
  | .hbm, ⟨5, _⟩ => ⟨S_, .f32⟩
  | .hbm, ⟨6, _⟩ => ⟨S16384x1, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S1x128, .f32⟩
  | .hbm, ⟨16, _⟩ => ⟨S16384x128, .f32⟩
  | .local _ .vmem, ⟨0, _⟩ => ⟨S256x16384, .f32⟩
  | .local _ .vmem, ⟨1, _⟩ => ⟨S256x16384, .f32⟩
  | .local _ .vmem, ⟨2, _⟩ => ⟨S256x1, .f32⟩
  | .local _ .vmem, ⟨3, _⟩ => ⟨S256x1, .f32⟩
  | .local _ .vmem, ⟨4, _⟩ => ⟨S1024x2048, .f32⟩
  | .local _ .vmem, ⟨5, _⟩ => ⟨S1024x2048, .f32⟩
  | .local _ .vmem, ⟨6, _⟩ => ⟨S2048x128, .f32⟩
  | .local _ .vmem, ⟨7, _⟩ => ⟨S2048x128, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S1x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S16384x128_S128x128_S16384x128_1_0_0_1_n_n_wf : DotDims.WF S16384x128 S128x128 S16384x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S16384x128.size a
  hwx1_5 : ∀ i : grid1.Coords, EltTy.bits .f32 = 32 ∨ (Rect.block (s := S16384x128) S1024x128.size (cc1_transform_5 i) (hinb1_5 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x16384, .i32⟩
  | .hbm, ⟨5, _⟩ => ⟨S16384x16384, .i32⟩
  | .hbm, ⟨6, _⟩ => ⟨S_, .i32⟩
  | .hbm, ⟨7, _⟩ => ⟨S16384x16384, .i32⟩
  | .hbm, ⟨8, _⟩ => ⟨S16384x16384, .i32⟩
  | .hbm, ⟨9, _⟩ => ⟨S16384x16384, .i1⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S1x16384, .f32⟩
  | .hbm, ⟨22, _⟩ => ⟨S16384x16384, .f32⟩
  | .hbm, ⟨23, _⟩ => ⟨S16384x16384, .f32⟩
  | .hbm, ⟨24, _⟩ => ⟨S16384x128, .f32⟩
  | .hbm, ⟨25, _⟩ => ⟨S16384x128, .f32⟩
  | .hbm, ⟨26, _⟩ => ⟨S1x128, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KernelBody0.lean ====
/-
  The row-sum pass, one grid point at a time. The pass walks the adjacency in 64 slabs of 256 rows; at a point it
  holds one slab whole and writes the 256 row sums as a column. What the column's staging buffer holds after the
  body is one store covering it: the lane sum of the slab, laid as a column. The proof data of the pass name, at the
  buffer contents `V` the pass is entered from, the slab read off the adjacency and that column; nothing is carried
  from point to point.
-/
import proofs.«173103_j28157805593140_1_alg».proof.Proof.Gen.Kernel.Launch
import proofs.«173103_j28157805593140_1_alg».proof.Proof.Gen.Kernel.Skeleton
import proofs.«173103_j28157805593140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab's staging buffer holds the slab at every point, for any proof data whose array is `V`'s and whose body
    leaves the slab in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_in : Rect S256x16384 := Rect.unit (s := S256x16384) ![0, 0] S256x16384.size inb_S256x16384_S256x16384_0_0
abbrev r0_out : Rect S256x1 := Rect.unit (s := S256x1) ![0, 0] S256x1.size inb_S256x1_S256x1_0_0

/-- The column's staging buffer after the body, from the slab: its one store as a piece. -/
def out0_1 (x0 : Vec F S256x16384 .f32) : Vec F S256x1 .f32 :=
  View.canon [⟨r0_out, k0_pay1 (View.ld x0 r0_in)⟩]

/-- The store covers the buffer. -/
theorem cover0_1 (p0 : Vec F S256x1 .f32) (y : S256x1.Idx) :
    ∃ pc ∈ ([⟨r0_out, p0⟩] : List (View.Piece (Elt F) S256x1 .f32)), y ∈ pc.1.set :=
  View.cover_of_tiled [⟨r0_out, p0⟩] S256x1.size (by rfl) y

/-! ## The body's triple -/

set_option maxHeartbeats 1000000 in
/-- The body on whole staging memrefs, the slab's at contents `x0` and the column's at anything, runs to the
    continuation holding the slab's as it was and the column's at `out0_1 x0`. -/
theorem sound_kernel0 (c : Dev nD) (E : Set ℕ) (i : grid0.Coords) (arg1 : Memref sig .tc .vmem S256x16384 .f32) (harg1 : arg1.IsWhole)
    (arg2 : Memref sig .tc .vmem S256x1 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pass's proof data -/

/-- The proof data of the row-sum pass on core `c`: the arrays as the pass finds them; after the body at point `t`
    the slab's buffer at the slab and the column's at `out0_1` of the slab; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the row-sum pass, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelBody1Runs.lean ====
/-
  The aggregation pass, what its three kinds of grid point share. The pass walks a 16 × 8 grid: the first coordinate
  picks a slab of 1024 output rows, the second one of 8 column blocks of the adjacency (2048 columns each) with the
  matching 2048 rows of the scaled features. A scratch accumulator is carried along the second coordinate: cleared at
  block 0, added to at every block, and at block 7 combined with the diagonal term, the slab's inverse square-root
  degrees and the bias into the output slab, which is stored there and nowhere else. Here: each window's block read
  off its array, the two branch conditions in closed form over the grid, where the output window is idle, and the
  names of the staging memrefs and of the scratch.
-/
import proofs.«173103_j28157805593140_1_alg».proof.Proof.Gen.Kernel.Launch
import proofs.«173103_j28157805593140_1_alg».proof.Proof.Gen.Kernel.Skeleton
import proofs.«173103_j28157805593140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved), for any proof data whose array is `V`'s and whose body leaves the block in place:
    stated window by window, each window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch's condition: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the column-block coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging memrefs and the scratch -/

/-- One staging buffer of the output window, through which its contents are stated. -/
abbrev VO1_5 : View sig .tc .vmem S1024x128 .f32 := (Memref.whole cc1_stg5_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1 : Memref sig .tc .vmem S1024x128 .f32 := Memref.whole cc1_scratch0
abbrev VS1 : View sig .tc .vmem S1024x128 .f32 := scM1.view

/-- The row-sum pass's four staging buffers, which this pass does not touch, each at some contents. -/
def idle4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The pass's invariant before its first point: those four buffers, the scratch at some contents, the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.KernelBody1RunA.lean ====
/-
  The aggregation pass at a point of column block 0: the scratch accumulator, at anything, is cleared and the block's
  product added; the output slab is not touched.
-/
import proofs.«173103_j28157805593140_1_alg».proof.Proof.KernelBody1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the scratch (last first) at such a point,
    with the body's triple on whole staging memrefs: the inputs' at their contents and handed back as they were. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) :
    Σ' (L5 : List (View.Piece (Elt F) S1024x128 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8) K } := by
  refine ⟨[], ?_, fun xi5 E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.KernelBody1RunB.lean ====
/-
  The aggregation pass at a point of a column block between the first and the last: the block's product is added to
  the scratch accumulator as the point before left it; the output slab is not touched.
-/
import proofs.«173103_j28157805593140_1_alg».proof.Proof.KernelBody1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the scratch (last first) at such a point,
    with the body's triple on whole staging memrefs: the inputs' at their contents and handed back as they were. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8) K } := by
  refine ⟨[], ?_, fun xi5 E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.KernelBody1RunC.lean ====
/-
  The aggregation pass at a point of the last column block: the block's product is added to the scratch accumulator as
  the point before left it, and the output slab is stored from the total, the diagonal term, the slab's inverse
  square-root degrees and the bias.
-/
import proofs.«173103_j28157805593140_1_alg».proof.Proof.KernelBody1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the scratch (last first) at such a point,
    with the body's triple on whole staging memrefs: the inputs' at their contents and handed back as they were. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8) K } := by
  refine ⟨?_, ?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.KernelBody1.lean ====
/-
  The aggregation pass, point by point. What the scratch accumulator and the output slab's staging buffer hold after
  each grid point is a recursion on the point: at column block 0 the accumulator restarts from the block's product, at
  every later block it is what the point before left plus the block's product, and at block 7 the output slab is
  computed from it. The proof data of the pass name these contents; its invariant carries the accumulator from one
  point to the next; the body obligation is the case analysis on the column block.
-/
import proofs.«173103_j28157805593140_1_alg».proof.Proof.KernelBody1RunA
import proofs.«173103_j28157805593140_1_alg».proof.Proof.KernelBody1RunB
import proofs.«173103_j28157805593140_1_alg».proof.Proof.KernelBody1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point of case A leaves in the output's staging buffer: its pieces read back (none: a placeholder nothing consults, the window being idle and not written back at such a point). -/
def out1_A_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) : Vec F S1024x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the scratch cover it. -/
theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) (y : S1024x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x128.size (by sl_kernel_rfl) y

/-- What a point of case A leaves in the scratch: its pieces read back. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

/-- What a point of case B leaves in the output's staging buffer: its pieces read back (none: a placeholder nothing consults, the window being idle and not written back at such a point). -/
def out1_B_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs).1)

/-- Case B's pieces for the scratch cover it. -/
theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (kernelRun1_B c i arg2 harg2 arg3 harg3 arg4 harg4 arg5 harg5 arg6 harg6 arg7 harg7 arg8 harg8 hc0 hc1 x0 x1 x2 x3 x4 xs).2.1, y ∈ pc.1.set :=
  View.cover_of_tiledL (kernelRun1_B c i arg2 harg2 arg3 harg3 arg4 harg4 arg5 harg5 arg6 harg6 arg7 harg7 arg8 harg8 hc0 hc1 x0 x1 x2 x3 x4 xs).2.1 S1024x128.size (by sl_kernel_rfl) y

/-- What a point of case B leaves in the scratch: its pieces read back. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs).2.1)

/-- What a point of case C leaves in the output's staging buffer: its pieces read back. -/
def out1_C_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs).1)

/-- Case C's pieces for the scratch cover it. -/
theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S1024x128.size (by sl_kernel_rfl) y

/-- What a point of case C leaves in the scratch: its pieces read back. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1)

/-- Case C's pieces for the output slab cover it. -/
theorem cover1_C_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S1024x128.size (by sl_kernel_rfl) y

/-! ## What the output slab's buffer and the accumulator hold after each point -/

/-- THE ACCUMULATION. After the body at position `n`: the output slab's staging buffer and the scratch accumulator (a
    pair), by the case the column block selects, the accumulator of a later block over what the point before left. -/
def outsAt1 (c : Dev nD) : (n : ℕ) → n < cfg1.N → Vec F S1024x128 .f32 × Vec F S1024x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pass's invariant -/

/-- The pass's invariant before position `n`: before the first point the scoped rest with the scratch at anything;
    afterwards the row-sum pass's four staging buffers at anything, the scratch accumulator at what the point before
    left in it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1 fullShare ((outsAt1 V c (n - 1) (by omega)).2)) ∗ (∃ r, prngReg c r)) := by
  cases n with
  | zero => exact absurd rfl hz
  | succ n => rfl

/-! ## The pass's proof data -/

/-- The proof data of the aggregation pass on core `c`: the arrays as the pass finds them; after the body at point `t`
    each input's buffer at its block and the output slab's at `outsAt1`'s first component; the invariant `PhiS1`; the
    scaled features, read through two windows, held as the two halves of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the column block says which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [show cfg1.idle 0 (cfg1.grid.coords t) = false from rfl], after1_0]
  rw [show (dat1 V c).leavesExact 1 t = owns (c : Thread nD τ) (ms1_1 t) fullShare ((dat1 V c).after 1 t) from by
    unfold Dat.leavesExact; rw [show cfg1.idle 1 (cfg1.grid.coords t) = false from rfl], after1_1]
  rw [show (dat1 V c).leavesExact 2 t = owns (c : Thread nD τ) (ms1_2 t) fullShare ((dat1 V c).after 2 t) from by
    unfold Dat.leavesExact; rw [show cfg1.idle 2 (cfg1.grid.coords t) = false from rfl], after1_2]
  rw [show (dat1 V c).leavesExact 3 t = owns (c : Thread nD τ) (ms1_3 t) fullShare ((dat1 V c).after 3 t) from by
    unfold Dat.leavesExact; rw [show cfg1.idle 3 (cfg1.grid.coords t) = false from rfl], after1_3]
  rw [show (dat1 V c).leavesExact 4 t = owns (c : Thread nD τ) (ms1_4 t) fullShare ((dat1 V c).after 4 t) from by
    unfold Dat.leavesExact; rw [show cfg1.idle 4 (cfg1.grid.coords t) = false from rfl], after1_4]
  by_cases h0 : t.val % 8 = 0
  · by_cases h1 : t.val % 8 = 7
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C; (try dsimp only)
      by_cases hz : t.val = 0
      · exfalso; omega
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_C c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation of the aggregation pass, at every point. -/
theorem body_obligation1 (c : Dev nD) : BodyObligation (dat1 (F := F) V c) (defs₀ (F := F)) Variants.none () Set.univ := fun t => by
  rw [bigSep_W1, bigSep_W1]
  exact sound_body1 V c t

/-- What the pass is handed at its entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KernelRun.lean ====
/-
  The program's run, from launch to return. @main is the row-sum pass, a stretch of host operations, and the
  aggregation pass. The buffer contents at each boundary are a fold from the launch memory: the row-sum pass changes
  only the column of row sums, the host stretch only the buffers it writes, the aggregation pass only the output. The
  aggregation pass reads the scaled features through two windows, so the one buffer behind them is dealt to the two
  windows as the two halves of its full share on entry and joined again on exit. Every weakly fair execution
  terminates, and the final memory holds every unscoped buffer at the last boundary's contents.
-/
import proofs.«173103_j28157805593140_1_alg».proof.Proof.KernelBody0
import proofs.«173103_j28157805593140_1_alg».proof.Proof.KernelBody1
import proofs.«173103_j28157805593140_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The aggregation pass's arrays, two of its windows sharing one -/

section Shared

variable (V : (c : Dev nD) → (b : Ref sig .tc) → Buf (Elt F) ((c : Thread nD τ).loc b))

/-- The distinct buffers behind the aggregation pass's arrays, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_arg1) ↦{fullShare} Vv main_arg1) ∗ (((c : Thread nD τ).loc main_v8) ↦{fullShare} Vv main_v8)
          ∗ (((c : Thread nD τ).loc main_v5) ↦{fullShare} Vv main_v5) ∗ (((c : Thread nD τ).loc main_v9) ↦{fullShare} Vv main_v9)
          ∗ (((c : Thread nD τ).loc main_v10) ↦{fullShare} Vv main_v10)) := by
  unfold Pipeline.arrBufs
  exact bigSep_eq_bigSepL_of_eq [main_arg1, main_v8, main_v5, main_v9, main_v10] (by decide) (by decide) _

/-- The pass's arrays as its proof data hold them, window by window: the scaled features at the two half shares. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v8) ↦{fullShare.left} G 1)
          ∗ (((c : Thread nD τ).loc main_v8) ↦{fullShare.right} G 2) ∗ (((c : Thread nD τ).loc main_v5) ↦{fullShare} G 3)
          ∗ (((c : Thread nD τ).loc main_v9) ↦{fullShare} G 4) ∗ (((c : Thread nD τ).loc main_v10) ↦{fullShare} G 5)) := by
  unfold Dat.arrays
  rw [bigSep_W1]
  rw [show (cfg1.win 0).arr.view.set = Finset.univ from (arr_whole1 0).set_eq_univ,
    show (cfg1.win 1).arr.view.set = Finset.univ from (arr_whole1 1).set_eq_univ,
    show (cfg1.win 3).arr.view.set = Finset.univ from (arr_whole1 3).set_eq_univ,
    show (cfg1.win 4).arr.view.set = Finset.univ from (arr_whole1 4).set_eq_univ,
    show (cfg1.win 5).arr.view.set = Finset.univ from (arr_whole1 5).set_eq_univ,
    show (dat1 V c).share 0 = fullShare from rfl, show (dat1 V c).share 1 = fullShare.left from rfl,
    show (dat1 V c).share 2 = fullShare.right from rfl, show (dat1 V c).share 3 = fullShare from rfl,
    show (dat1 V c).share 4 = fullShare from rfl, show (dat1 V c).share 5 = fullShare from rfl]

/-- ENTRY: the distinct buffers behind the arrays, each whole at `Vv`, are the pass's arrays at contents read off
    `Vv`: the scaled features' buffer split into the two halves of its share. -/
theorem arrays1_of_arrBufs (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    (Pipeline.arrBufs (Ix := Unit) (Name := ℕ) (U := UR sig nD τ) (Lvl := ℕ) spec1 c Vv : sProp 𝕄) ⊢ (dat1 V c).arrays G := by
  rw [arrBufs1_eq, arrays1_eq, hG 0, hG 1, hG 2, hG 3, hG 4, hG 5]
  have hsplit : (((c : Thread nD τ).loc main_v8) ↦{fullShare} Vv main_v8 : sProp 𝕄)
      ⊢ iprop((((c : Thread nD τ).loc main_v8) ↦{fullShare.left} Vv main_v8) ∗ (((c : Thread nD τ).loc main_v8) ↦{fullShare.right} Vv main_v8)) :=
    (pointsTo_share (PosShare.mem_left_op_right fullShare)).1
  iintro ⟨H1, H8, H5, H9, H10⟩
  ihave H8' := hsplit $$ H8
  icases H8' with ⟨H8l, H8r⟩
  isplitl [H1]; · iexact H1
  isplitl [H8l]; · iexact H8l
  isplitl [H8r]; · iexact H8r
  isplitl [H5]; · iexact H5
  isplitl [H9]; · iexact H9
  iexact H10

/-- EXIT: the pass's arrays at contents that are `Vv`'s join back into the distinct buffers, each whole at `Vv`. -/
theorem arrBufs1_of_arrays (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    ((dat1 V c).arrays G : sProp 𝕄) ⊢ Pipeline.arrBufs (Ix := Unit) (Name := ℕ) (U := UR sig nD τ) (Lvl := ℕ) spec1 c Vv := by
  rw [arrBufs1_eq, arrays1_eq, hG 0, hG 1, hG 2, hG 3, hG 4, hG 5]
  have hjoin : (iprop((((c : Thread nD τ).loc main_v8) ↦{fullShare.left} Vv main_v8) ∗ (((c : Thread nD τ).loc main_v8) ↦{fullShare.right} Vv main_v8)) : sProp 𝕄)
      ⊢ (((c : Thread nD τ).loc main_v8) ↦{fullShare} Vv main_v8) :=
    (pointsTo_share (PosShare.mem_left_op_right fullShare)).2
  iintro ⟨H1, H8l, H8r, H5, H9, H10⟩
  isplitl [H1]; · iexact H1
  isplitl [H8l H8r]
  · iapply hjoin
    isplitl [H8l]; · iexact H8l
    iexact H8r
  isplitl [H5]; · iexact H5
  isplitl [H9]; · iexact H9
  iexact H10

end Shared

/-! ## The buffer contents at each boundary -/

variable (m : (ℓ : Loc nD τ sig) → Buf (Elt F) ℓ) (ρ : Dev nD → PrngReg)

/-- Core `c`'s buffers at launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the row-sum pass: its arrays at what the pass leaves, every other buffer as launched. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hFb (c : Dev nD) (w : Fin cfg0.W) : (dat0 (Va m ρ) c).arrAt w cfg0.N = Vb m ρ c (Pipeline.arrRef spec0 w) :=
  (Wb_arr m ρ c w).symm
theorem hrestb (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the host stretch. -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b
/-- After the aggregation pass: the output at what the pass leaves, every other buffer as the pass found it. -/
def Wd (c : Dev nD) : Valuation τ sig (Elt F) :=
  Function.update (Wc m ρ c) (Proc.devRef .tc main_v10) ((dat1 (Vc m ρ) c).arrAt 5 cfg1.N)
theorem Wd_out (c : Dev nD) : Wd m ρ c (Proc.devRef .tc main_v10) = (dat1 (Vc m ρ) c).arrAt 5 cfg1.N := by
  unfold Wd; exact Function.update_self _ _ _
theorem Wd_of_ne (c : Dev nD) (b : Ref sig .tc) (hb : b ≠ main_v10) :
    Wd m ρ c (Proc.devRef .tc b) = Wc m ρ c (Proc.devRef .tc b) := by
  unfold Wd; exact Function.update_of_ne (StableHlo.devRef_ne_of_ne hb) _ _
abbrev Vd : (c : Dev nD) → (b : Ref sig .tc) → Buf (Elt F) ((c : Thread nD τ).loc b) := fun c b => Wd m ρ c b

/-- At the aggregation pass's exit each of its arrays holds what the pass leaves: the inputs as entered, the output
    its write-backs folded. -/
theorem hFd (c : Dev nD) (w : Fin cfg1.W) : (dat1 (Vc m ρ) c).arrAt w cfg1.N = Vd m ρ c (Pipeline.arrRef spec1 w) := by
  match w with
  | ⟨0, _⟩ => exact (((dat1 (Vc m ρ) c).arrAt_in 0 rfl _).trans (A_eq1 (Vc m ρ) c 0)).trans (Wd_of_ne m ρ c main_arg1 (by decide)).symm
  | ⟨1, _⟩ => exact (((dat1 (Vc m ρ) c).arrAt_in 1 rfl _).trans (A_eq1 (Vc m ρ) c 1)).trans (Wd_of_ne m ρ c main_v8 (by decide)).symm
  | ⟨2, _⟩ => exact (((dat1 (Vc m ρ) c).arrAt_in 2 rfl _).trans (A_eq1 (Vc m ρ) c 2)).trans (Wd_of_ne m ρ c main_v8 (by decide)).symm
  | ⟨3, _⟩ => exact (((dat1 (Vc m ρ) c).arrAt_in 3 rfl _).trans (A_eq1 (Vc m ρ) c 3)).trans (Wd_of_ne m ρ c main_v5 (by decide)).symm
  | ⟨4, _⟩ => exact (((dat1 (Vc m ρ) c).arrAt_in 4 rfl _).trans (A_eq1 (Vc m ρ) c 4)).trans (Wd_of_ne m ρ c main_v9 (by decide)).symm
  | ⟨5, _⟩ => exact (Wd_out m ρ c).symm
theorem hrestd (c : Dev nD) : ∀ b, b ∉ Finset.univ.image (Pipeline.arrRef spec1) → Vd m ρ c b = Vc m ρ c b :=
  fun b hb => Wd_of_ne m ρ c b fun e => hb (Finset.mem_image.mpr ⟨5, Finset.mem_univ _, e.symm⟩)

/-! ### The arguments end as launched -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := Wd_of_ne m ρ c main_arg0 (by decide)
    _ = Wb m ρ c (Proc.devRef .tc main_arg0) := StableHlo.after_of_writes_sub hostOps1 _ hostOps1_writes (by decide)
    _ = Wa m ρ c (Proc.devRef .tc main_arg0) := Wb_of_ne m ρ c main_arg0 (by decide)
    _ = m ((c : Thread nD τ).loc main_arg0) := rfl

theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := Wd_of_ne m ρ c main_arg1 (by decide)
    _ = Wb m ρ c (Proc.devRef .tc main_arg1) := StableHlo.after_of_writes_sub hostOps1 _ hostOps1_writes (by decide)
    _ = Wa m ρ c (Proc.devRef .tc main_arg1) := (Wb_arr m ρ c 0).trans (((dat0 (Va m ρ) c).arrAt_in 0 rfl _).trans (A_eq0 (Va m ρ) c 0))
    _ = m ((c : Thread nD τ).loc main_arg1) := rfl

theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := Wd_of_ne m ρ c main_arg2 (by decide)
    _ = Wb m ρ c (Proc.devRef .tc main_arg2) := StableHlo.after_of_writes_sub hostOps1 _ hostOps1_writes (by decide)
    _ = Wa m ρ c (Proc.devRef .tc main_arg2) := Wb_of_ne m ρ c main_arg2 (by decide)
    _ = m ((c : Thread nD τ).loc main_arg2) := rfl

theorem Wd_main_arg3 (c : Dev nD) : Wd m ρ c (Proc.devRef .tc main_arg3) = m ((c : Thread nD τ).loc main_arg3) :=
  calc Wd m ρ c (Proc.devRef .tc main_arg3)
    _ = Wc m ρ c (Proc.devRef .tc main_arg3) := Wd_of_ne m ρ c main_arg3 (by decide)
    _ = Wb m ρ c (Proc.devRef .tc main_arg3) := StableHlo.after_of_writes_sub hostOps1 _ hostOps1_writes (by decide)
    _ = Wa m ρ c (Proc.devRef .tc main_arg3) := Wb_of_ne m ρ c main_arg3 (by decide)
    _ = m ((c : Thread nD τ).loc main_arg3) := rfl

/-! ## The proof data family and the thread state -/

/-- No pallas_call has a prefetched table. -/
abbrev hadm : (p : Fin 2) → (pcfgs (F := F) p).Adm := fun p => (cfgs p).toPCfg_adm
/-- Both passes' proof data, each at its pass's entry contents. -/
def pdats : (p : Fin 2) → (c : Dev nD) → Dat τ (Elt F) Unit ℕ (UR sig nD τ) ℕ (Pipeline.pin (pcfgs (F := F)) hadm p) c
  | ⟨0, _⟩ => fun c => dat0 (Va m ρ) c
  | ⟨1, _⟩ => fun c => dat1 (Vc m ρ) c
abbrev 𝒱h : Variants := Variants.none
abbrev Lh : GSem nD τ sig → Finset Unit := fun _ => ∅
abbrev lvh : GSem nD τ sig → Unit → ℕ := fun _ _ => 0
/-- What rides beside the buffers through every segment: the generator register at some state, nothing owed. -/
abbrev Rh (c : Dev nD) : sProp 𝕄 := iprop((∃ r, prngReg c r) ∗ ∃ W, owes (c : Thread nD τ) (0 : CellTallies nD τ sig Unit) W)
/-- The host stretch as a segment over the unscoped references from the contents after the row-sum pass. -/
abbrev hsegh : Pipeline.HostSeg (Name := ℕ) (U := UR sig nD τ) (pcfgs (F := F)) defs₀ 𝒱h Lh lvh :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wb m ρ) Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tend (c : Dev nD) : sProp 𝕄 := iprop(StableHlo.held (c : Thread nD τ) (Pipeline.ucRefs τ sig) (Wd m ρ c) ∗ ∃ r, prngReg c r)

/-! ## The passes as segments -/

set_option backward.isDefEq.respectTransparency.types false in
/-- The row-sum pass over the thread state: entered from every unscoped buffer as launched, left at `Wb`. -/
def reg0 : Pipeline.RegionSeg (pcfgs (F := F)) hadm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ Lh lvh 0 fun _ _ => rfl
  pre c := iprop(StableHlo.held (c : Thread nD τ) (Pipeline.ucRefs τ sig) (Wa m ρ c) ∗ Rh c)
  post c := iprop(StableHlo.held (c : Thread nD τ) (Pipeline.ucRefs τ sig) (Wb m ρ c) ∗ Rh c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hFb m ρ c) (hrestb m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from every unscoped buffer at `Wc`, left at `Wd`. Its arrays
    are dealt out of the distinct buffers behind them (the scaled features' as two half shares) and joined back at the
    exit contents; the generator register goes into the invariant and comes out. -/
def reg1 : Pipeline.RegionSeg (pcfgs (F := F)) hadm (pdats m ρ) () defs₀ 𝒱h Lh lvh 1 where
  win := winFacts₀1
  block_pos := block_pos1
  stage_whole := stage_whole1
  K := PEmpty
  osem k := k.elim
  ho := Pipeline.OwnSemFacts.none _
  hbody c := (body_obligation1 (Vc m ρ) c).loose
  hwaits := Pipeline.hwaits_of_owed_zero _ _ _ _ Lh lvh 1 fun _ _ => rfl
  pre c := iprop(StableHlo.held (c : Thread nD τ) (Pipeline.ucRefs τ sig) (Wc m ρ c) ∗ Rh c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit : (unscopedBufs c (Vc m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (Vc m ρ c)) := by
      rw [Pipeline.unscopedBufs_split₀ (cfgs) 1 winFacts₀1.arr_unscoped c (Vc m ρ c)]
      exact sep_mono (arrays1_of_arrBufs (Vc m ρ) c (Vc m ρ c) _ fun w => A_eq1 (Vc m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Vc m ρ) c).Φ 0 from rfl]
    refine .trans ?_ (hin1 (Vc m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (Vc m ρ) c).Φ (Fin.last cfg1.N) from rfl]
    refine (hout1 (Vc m ρ) c).trans ?_
    unfold Pipeline.ΦA
    iintro ⟨Hr, Hp⟩
    isplitl [Hp]; · iexact Hp
    isplitr; · iempintro
    iexact Hr
  hexit c := by
    have hjoin : (iprop((pdats m ρ 1 c).arrays ((pdats m ρ 1 c).arrAt · cfg1.N) ∗ Pipeline.unscopedRest (Ix := Unit) (Name := ℕ) (U := UR sig nD τ) (Lvl := ℕ) spec1 c (Vc m ρ c)) : sProp 𝕄)
        ⊢ unscopedBufs c (Vd m ρ c) := by
      rw [Pipeline.unscopedBufs_split₀ (cfgs) 1 winFacts₀1.arr_unscoped c (Vd m ρ c)]
      refine sep_mono (arrBufs1_of_arrays (Vc m ρ) c (Vd m ρ c) _ (hFd m ρ c)) (Entails.of_eq ?_)
      unfold Pipeline.unscopedRest
      exact bigSep_congr fun b hb => by rw [hrestd m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsh : List (Pipeline.Seg (pcfgs (F := F)) hadm (pdats m ρ) () defs₀ 𝒱h Lh lvh) :=
  [ .region (reg0 m ρ), .host (hsegh m ρ), .region (reg1 m ρ) ]

theorem main_run (c : Dev nD) : main (F := F) c = Pipeline.Seg.run (segsh m ρ) := (main_chain c).trans (by chain_rfl)

set_option backward.isDefEq.respectTransparency.types false in
/-- THE RUN. From any memory with zero counters, every weakly fair execution of @main terminates, nothing faulting,
    and every final state holds every unscoped buffer of every core at the last boundary's contents `Wd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) hadm (pdats m ρ) () cellOf_inj emb₁ defs₀ 𝒱h Lh lvh m ρ main (segsh m ρ)
    (fun c Q => by rw [main_run m ρ c])
    (by simp only [segsh, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ Rh c)) (Tₙ := Tend m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c),
     (h c _ (mem_uc main_arg3 (by decide))).trans (Wd_main_arg3 m ρ c)⟩) (run_all m ρ)

end Cert.Kernel.Hand

end
-- ==== Proof.KernelIdealBody0.lean ====
/-
  The row-sum pass, one grid point at a time. The pass walks the adjacency in 64 slabs of 256 rows; at a point it
  holds one slab whole and writes the 256 row sums as a column. What the column's staging buffer holds after the
  body is one store covering it: the lane sum of the slab, laid as a column. The proof data of the pass name, at the
  buffer contents `V` the pass is entered from, the slab read off the adjacency and that column; nothing is carried
  from point to point.
-/
import proofs.«173103_j28157805593140_1_alg».proof.Proof.Gen.KernelIdeal.Launch
import proofs.«173103_j28157805593140_1_alg».proof.Proof.Gen.KernelIdeal.Skeleton
import proofs.«173103_j28157805593140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab's staging buffer holds the slab at every point, for any proof data whose array is `V`'s and whose body
    leaves the slab in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_in : Rect S256x16384 := Rect.unit (s := S256x16384) ![0, 0] S256x16384.size inb_S256x16384_S256x16384_0_0
abbrev r0_out : Rect S256x1 := Rect.unit (s := S256x1) ![0, 0] S256x1.size inb_S256x1_S256x1_0_0

/-- The column's staging buffer after the body, from the slab: its one store as a piece. -/
def out0_1 (x0 : Vec F S256x16384 .f32) : Vec F S256x1 .f32 :=
  View.canon [⟨r0_out, k0_pay1 (View.ld x0 r0_in)⟩]

/-- The store covers the buffer. -/
theorem cover0_1 (p0 : Vec F S256x1 .f32) (y : S256x1.Idx) :
    ∃ pc ∈ ([⟨r0_out, p0⟩] : List (View.Piece (Elt F) S256x1 .f32)), y ∈ pc.1.set :=
  View.cover_of_tiled [⟨r0_out, p0⟩] S256x1.size (by rfl) y

/-! ## The body's triple -/

set_option maxHeartbeats 1000000 in
/-- The body on whole staging memrefs, the slab's at contents `x0` and the column's at anything, runs to the
    continuation holding the slab's as it was and the column's at `out0_1 x0`. -/
theorem sound_kernel0 (c : Dev nD) (E : Set ℕ) (i : grid0.Coords) (arg1 : Memref sig .tc .vmem S256x16384 .f32) (harg1 : arg1.IsWhole)
    (arg2 : Memref sig .tc .vmem S256x1 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pass's proof data -/

/-- The proof data of the row-sum pass on core `c`: the arrays as the pass finds them; after the body at point `t`
    the slab's buffer at the slab and the column's at `out0_1` of the slab; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the row-sum pass, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealBody1Runs.lean ====
/-
  The aggregation pass, what its three kinds of grid point share. The pass walks a 16 × 8 grid: the first coordinate
  picks a slab of 1024 output rows, the second one of 8 column blocks of the adjacency (2048 columns each) with the
  matching 2048 rows of the scaled features. A scratch accumulator is carried along the second coordinate: cleared at
  block 0, added to at every block, and at block 7 combined with the diagonal term, the slab's inverse square-root
  degrees and the bias into the output slab, which is stored there and nowhere else. Here: each window's block read
  off its array, the two branch conditions in closed form over the grid, where the output window is idle, and the
  names of the staging memrefs and of the scratch.
-/
import proofs.«173103_j28157805593140_1_alg».proof.Proof.Gen.KernelIdeal.Launch
import proofs.«173103_j28157805593140_1_alg».proof.Proof.Gen.KernelIdeal.Skeleton
import proofs.«173103_j28157805593140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved), for any proof data whose array is `V`'s and whose body leaves the block in place:
    stated window by window, each window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch's condition: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the column-block coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging memrefs and the scratch -/

/-- One staging buffer of the output window, through which its contents are stated. -/
abbrev VO1_5 : View sig .tc .vmem S1024x128 .f32 := (Memref.whole cc1_stg5_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1 : Memref sig .tc .vmem S1024x128 .f32 := Memref.whole cc1_scratch0
abbrev VS1 : View sig .tc .vmem S1024x128 .f32 := scM1.view

/-- The row-sum pass's four staging buffers, which this pass does not touch, each at some contents. -/
def idle4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The pass's invariant before its first point: those four buffers, the scratch at some contents, the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KernelIdealBody1RunA.lean ====
/-
  The aggregation pass at a point of column block 0: the scratch accumulator, at anything, is cleared and the block's
  product added; the output slab is not touched.
-/
import proofs.«173103_j28157805593140_1_alg».proof.Proof.KernelIdealBody1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the scratch (last first) at such a point,
    with the body's triple on whole staging memrefs: the inputs' at their contents and handed back as they were. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) :
    Σ' (L5 : List (View.Piece (Elt F) S1024x128 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8) K } := by
  refine ⟨[], ?_, fun xi5 E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KernelIdealBody1RunB.lean ====
/-
  The aggregation pass at a point of a column block between the first and the last: the block's product is added to
  the scratch accumulator as the point before left it; the output slab is not touched.
-/
import proofs.«173103_j28157805593140_1_alg».proof.Proof.KernelIdealBody1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the scratch (last first) at such a point,
    with the body's triple on whole staging memrefs: the inputs' at their contents and handed back as they were. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8) K } := by
  refine ⟨[], ?_, fun xi5 E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KernelIdealBody1RunC.lean ====
/-
  The aggregation pass at a point of the last column block: the block's product is added to the scratch accumulator as
  the point before left it, and the output slab is stored from the total, the diagonal term, the slab's inverse
  square-root degrees and the bias.
-/
import proofs.«173103_j28157805593140_1_alg».proof.Proof.KernelIdealBody1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the scratch (last first) at such a point,
    with the body's triple on whole staging memrefs: the inputs' at their contents and handed back as they were. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8) K } := by
  refine ⟨?_, ?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KernelIdealBody1.lean ====
/-
  The aggregation pass, point by point. What the scratch accumulator and the output slab's staging buffer hold after
  each grid point is a recursion on the point: at column block 0 the accumulator restarts from the block's product, at
  every later block it is what the point before left plus the block's product, and at block 7 the output slab is
  computed from it. The proof data of the pass name these contents; its invariant carries the accumulator from one
  point to the next; the body obligation is the case analysis on the column block.
-/
import proofs.«173103_j28157805593140_1_alg».proof.Proof.KernelIdealBody1RunA
import proofs.«173103_j28157805593140_1_alg».proof.Proof.KernelIdealBody1RunB
import proofs.«173103_j28157805593140_1_alg».proof.Proof.KernelIdealBody1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point of case A leaves in the output's staging buffer: its pieces read back (none: a placeholder nothing consults, the window being idle and not written back at such a point). -/
def out1_A_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) : Vec F S1024x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the scratch cover it. -/
theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) (y : S1024x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x128.size (by sl_kernel_rfl) y

/-- What a point of case A leaves in the scratch: its pieces read back. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 hc0 hc1 x0 x1 x2 x3 x4).2.1)

/-- What a point of case B leaves in the output's staging buffer: its pieces read back (none: a placeholder nothing consults, the window being idle and not written back at such a point). -/
def out1_B_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs).1)

/-- Case B's pieces for the scratch cover it. -/
theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (kernelRun1_B c i arg2 harg2 arg3 harg3 arg4 harg4 arg5 harg5 arg6 harg6 arg7 harg7 arg8 harg8 hc0 hc1 x0 x1 x2 x3 x4 xs).2.1, y ∈ pc.1.set :=
  View.cover_of_tiledL (kernelRun1_B c i arg2 harg2 arg3 harg3 arg4 harg4 arg5 harg5 arg6 harg6 arg7 harg7 arg8 harg8 hc0 hc1 x0 x1 x2 x3 x4 xs).2.1 S1024x128.size (by sl_kernel_rfl) y

/-- What a point of case B leaves in the scratch: its pieces read back. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 hc0 hc1 x0 x1 x2 x3 x4 xs).2.1)

/-- What a point of case C leaves in the output's staging buffer: its pieces read back. -/
def out1_C_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs).1)

/-- Case C's pieces for the scratch cover it. -/
theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S1024x128.size (by sl_kernel_rfl) y

/-- What a point of case C leaves in the scratch: its pieces read back. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1)

/-- Case C's pieces for the output slab cover it. -/
theorem cover1_C_5 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S1024x128.size (by sl_kernel_rfl) y

/-! ## What the output slab's buffer and the accumulator hold after each point -/

/-- THE ACCUMULATION. After the body at position `n`: the output slab's staging buffer and the scratch accumulator (a
    pair), by the case the column block selects, the accumulator of a later block over what the point before left. -/
def outsAt1 (c : Dev nD) : (n : ℕ) → n < cfg1.N → Vec F S1024x128 .f32 × Vec F S1024x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pass's invariant -/

/-- The pass's invariant before position `n`: before the first point the scoped rest with the scratch at anything;
    afterwards the row-sum pass's four staging buffers at anything, the scratch accumulator at what the point before
    left in it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1 fullShare ((outsAt1 V c (n - 1) (by omega)).2)) ∗ (∃ r, prngReg c r)) := by
  cases n with
  | zero => exact absurd rfl hz
  | succ n => rfl

/-! ## The pass's proof data -/

/-- The proof data of the aggregation pass on core `c`: the arrays as the pass finds them; after the body at point `t`
    each input's buffer at its block and the output slab's at `outsAt1`'s first component; the invariant `PhiS1`; the
    scaled features, read through two windows, held as the two halves of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the column block says which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [show cfg1.idle 0 (cfg1.grid.coords t) = false from rfl], after1_0]
  rw [show (dat1 V c).leavesExact 1 t = owns (c : Thread nD τ) (ms1_1 t) fullShare ((dat1 V c).after 1 t) from by
    unfold Dat.leavesExact; rw [show cfg1.idle 1 (cfg1.grid.coords t) = false from rfl], after1_1]
  rw [show (dat1 V c).leavesExact 2 t = owns (c : Thread nD τ) (ms1_2 t) fullShare ((dat1 V c).after 2 t) from by
    unfold Dat.leavesExact; rw [show cfg1.idle 2 (cfg1.grid.coords t) = false from rfl], after1_2]
  rw [show (dat1 V c).leavesExact 3 t = owns (c : Thread nD τ) (ms1_3 t) fullShare ((dat1 V c).after 3 t) from by
    unfold Dat.leavesExact; rw [show cfg1.idle 3 (cfg1.grid.coords t) = false from rfl], after1_3]
  rw [show (dat1 V c).leavesExact 4 t = owns (c : Thread nD τ) (ms1_4 t) fullShare ((dat1 V c).after 4 t) from by
    unfold Dat.leavesExact; rw [show cfg1.idle 4 (cfg1.grid.coords t) = false from rfl], after1_4]
  by_cases h0 : t.val % 8 = 0
  · by_cases h1 : t.val % 8 = 7
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C; (try dsimp only)
      by_cases hz : t.val = 0
      · exfalso; omega
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_C c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation of the aggregation pass, at every point. -/
theorem body_obligation1 (c : Dev nD) : BodyObligation (dat1 (F := F) V c) (defs₀ (F := F)) Variants.none () Set.univ := fun t => by
  rw [bigSep_W1, bigSep_W1]
  exact sound_body1 V c t

/-- What the pass is handed at its entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KernelIdealRun.lean ====
/-
  The program's run, from launch to return. @main is the row-sum pass, a stretch of host operations, and the
  aggregation pass. The buffer contents at each boundary are a fold from the launch memory: the row-sum pass changes
  only the column of row sums, the host stretch only the buffers it writes, the aggregation pass only the output. The
  aggregation pass reads the scaled features through two windows, so the one buffer behind them is dealt to the two
  windows as the two halves of its full share on entry and joined again on exit. Every weakly fair execution
  terminates, and the final memory holds every unscoped buffer at the last boundary's contents.
-/
import proofs.«173103_j28157805593140_1_alg».proof.Proof.KernelIdealBody0
import proofs.«173103_j28157805593140_1_alg».proof.Proof.KernelIdealBody1
import proofs.«173103_j28157805593140_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The aggregation pass's arrays, two of its windows sharing one -/

section Shared

variable (V : (c : Dev nD) → (b : Ref sig .tc) → Buf (Elt F) ((c : Thread nD τ).loc b))

/-- The distinct buffers behind the aggregation pass's arrays, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_arg1) ↦{fullShare} Vv main_arg1) ∗ (((c : Thread nD τ).loc main_v8) ↦{fullShare} Vv main_v8)
          ∗ (((c : Thread nD τ).loc main_v5) ↦{fullShare} Vv main_v5) ∗ (((c : Thread nD τ).loc main_v9) ↦{fullShare} Vv main_v9)
          ∗ (((c : Thread nD τ).loc main_v10) ↦{fullShare} Vv main_v10)) := by
  unfold Pipeline.arrBufs
  exact bigSep_eq_bigSepL_of_eq [main_arg1, main_v8, main_v5, main_v9, main_v10] (by decide) (by decide) _

/-- The pass's arrays as its proof data hold them, window by window: the scaled features at the two half shares. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v8) ↦{fullShare.left} G 1)
          ∗ (((c : Thread nD τ).loc main_v8) ↦{fullShare.right} G 2) ∗ (((c : Thread nD τ).loc main_v5) ↦{fullShare} G 3)
          ∗ (((c : Thread nD τ).loc main_v9) ↦{fullShare} G 4) ∗ (((c : Thread nD τ).loc main_v10) ↦{fullShare} G 5)) := by
  unfold Dat.arrays
  rw [bigSep_W1]
  rw [show (cfg1.win 0).arr.view.set = Finset.univ from (arr_whole1 0).set_eq_univ,
    show (cfg1.win 1).arr.view.set = Finset.univ from (arr_whole1 1).set_eq_univ,
    show (cfg1.win 3).arr.view.set = Finset.univ from (arr_whole1 3).set_eq_univ,
    show (cfg1.win 4).arr.view.set = Finset.univ from (arr_whole1 4).set_eq_univ,
    show (cfg1.win 5).arr.view.set = Finset.univ from (arr_whole1 5).set_eq_univ,
    show (dat1 V c).share 0 = fullShare from rfl, show (dat1 V c).share 1 = fullShare.left from rfl,
    show (dat1 V c).share 2 = fullShare.right from rfl, show (dat1 V c).share 3 = fullShare from rfl,
    show (dat1 V c).share 4 = fullShare from rfl, show (dat1 V c).share 5 = fullShare from rfl]

/-- ENTRY: the distinct buffers behind the arrays, each whole at `Vv`, are the pass's arrays at contents read off
    `Vv`: the scaled features' buffer split into the two halves of its share. -/
theorem arrays1_of_arrBufs (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    (Pipeline.arrBufs (Ix := Unit) (Name := ℕ) (U := UR sig nD τ) (Lvl := ℕ) spec1 c Vv : sProp 𝕄) ⊢ (dat1 V c).arrays G := by
  rw [arrBufs1_eq, arrays1_eq, hG 0, hG 1, hG 2, hG 3, hG 4, hG 5]
  have hsplit : (((c : Thread nD τ).loc main_v8) ↦{fullShare} Vv main_v8 : sProp 𝕄)
      ⊢ iprop((((c : Thread nD τ).loc main_v8) ↦{fullShare.left} Vv main_v8) ∗ (((c : Thread nD τ).loc main_v8) ↦{fullShare.right} Vv main_v8)) :=
    (pointsTo_share (PosShare.mem_left_op_right fullShare)).1
  iintro ⟨H1, H8, H5, H9, H10⟩
  ihave H8' := hsplit $$ H8
  icases H8' with ⟨H8l, H8r⟩
  isplitl [H1]; · iexact H1
  isplitl [H8l]; · iexact H8l
  isplitl [H8r]; · iexact H8r
  isplitl [H5]; · iexact H5
  isplitl [H9]; · iexact H9
  iexact H10

/-- EXIT: the pass's arrays at contents that are `Vv`'s join back into the distinct buffers, each whole at `Vv`. -/
theorem arrBufs1_of_arrays (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    ((dat1 V c).arrays G : sProp 𝕄) ⊢ Pipeline.arrBufs (Ix := Unit) (Name := ℕ) (U := UR sig nD τ) (Lvl := ℕ) spec1 c Vv := by
  rw [arrBufs1_eq, arrays1_eq, hG 0, hG 1, hG 2, hG 3, hG 4, hG 5]
  have hjoin : (iprop((((c : Thread nD τ).loc main_v8) ↦{fullShare.left} Vv main_v8) ∗ (((c : Thread nD τ).loc main_v8) ↦{fullShare.right} Vv main_v8)) : sProp 𝕄)
      ⊢ (((c : Thread nD τ).loc main_v8) ↦{fullShare} Vv main_v8) :=
    (pointsTo_share (PosShare.mem_left_op_right fullShare)).2
  iintro ⟨H1, H8l, H8r, H5, H9, H10⟩
  isplitl [H1]; · iexact H1
  isplitl [H8l H8r]
  · iapply hjoin
    isplitl [H8l]; · iexact H8l
    iexact H8r
  isplitl [H5]; · iexact H5
  isplitl [H9]; · iexact H9
  iexact H10

end Shared

/-! ## The buffer contents at each boundary -/

variable (m : (ℓ : Loc nD τ sig) → Buf (Elt F) ℓ) (ρ : Dev nD → PrngReg)

/-- Core `c`'s buffers at launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the row-sum pass: its arrays at what the pass leaves, every other buffer as launched. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hFb (c : Dev nD) (w : Fin cfg0.W) : (dat0 (Va m ρ) c).arrAt w cfg0.N = Vb m ρ c (Pipeline.arrRef spec0 w) :=
  (Wb_arr m ρ c w).symm
theorem hrestb (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the host stretch. -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b
/-- After the aggregation pass: the output at what the pass leaves, every other buffer as the pass found it. -/
def Wd (c : Dev nD) : Valuation τ sig (Elt F) :=
  Function.update (Wc m ρ c) (Proc.devRef .tc main_v10) ((dat1 (Vc m ρ) c).arrAt 5 cfg1.N)
theorem Wd_out (c : Dev nD) : Wd m ρ c (Proc.devRef .tc main_v10) = (dat1 (Vc m ρ) c).arrAt 5 cfg1.N := by
  unfold Wd; exact Function.update_self _ _ _
theorem Wd_of_ne (c : Dev nD) (b : Ref sig .tc) (hb : b ≠ main_v10) :
    Wd m ρ c (Proc.devRef .tc b) = Wc m ρ c (Proc.devRef .tc b) := by
  unfold Wd; exact Function.update_of_ne (StableHlo.devRef_ne_of_ne hb) _ _
abbrev Vd : (c : Dev nD) → (b : Ref sig .tc) → Buf (Elt F) ((c : Thread nD τ).loc b) := fun c b => Wd m ρ c b

/-- At the aggregation pass's exit each of its arrays holds what the pass leaves: the inputs as entered, the output
    its write-backs folded. -/
theorem hFd (c : Dev nD) (w : Fin cfg1.W) : (dat1 (Vc m ρ) c).arrAt w cfg1.N = Vd m ρ c (Pipeline.arrRef spec1 w) := by
  match w with
  | ⟨0, _⟩ => exact (((dat1 (Vc m ρ) c).arrAt_in 0 rfl _).trans (A_eq1 (Vc m ρ) c 0)).trans (Wd_of_ne m ρ c main_arg1 (by decide)).symm
  | ⟨1, _⟩ => exact (((dat1 (Vc m ρ) c).arrAt_in 1 rfl _).trans (A_eq1 (Vc m ρ) c 1)).trans (Wd_of_ne m ρ c main_v8 (by decide)).symm
  | ⟨2, _⟩ => exact (((dat1 (Vc m ρ) c).arrAt_in 2 rfl _).trans (A_eq1 (Vc m ρ) c 2)).trans (Wd_of_ne m ρ c main_v8 (by decide)).symm
  | ⟨3, _⟩ => exact (((dat1 (Vc m ρ) c).arrAt_in 3 rfl _).trans (A_eq1 (Vc m ρ) c 3)).trans (Wd_of_ne m ρ c main_v5 (by decide)).symm
  | ⟨4, _⟩ => exact (((dat1 (Vc m ρ) c).arrAt_in 4 rfl _).trans (A_eq1 (Vc m ρ) c 4)).trans (Wd_of_ne m ρ c main_v9 (by decide)).symm
  | ⟨5, _⟩ => exact (Wd_out m ρ c).symm
theorem hrestd (c : Dev nD) : ∀ b, b ∉ Finset.univ.image (Pipeline.arrRef spec1) → Vd m ρ c b = Vc m ρ c b :=
  fun b hb => Wd_of_ne m ρ c b fun e => hb (Finset.mem_image.mpr ⟨5, Finset.mem_univ _, e.symm⟩)

/-! ### The arguments end as launched -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := Wd_of_ne m ρ c main_arg0 (by decide)
    _ = Wb m ρ c (Proc.devRef .tc main_arg0) := StableHlo.after_of_writes_sub hostOps1 _ hostOps1_writes (by decide)
    _ = Wa m ρ c (Proc.devRef .tc main_arg0) := Wb_of_ne m ρ c main_arg0 (by decide)
    _ = m ((c : Thread nD τ).loc main_arg0) := rfl

theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := Wd_of_ne m ρ c main_arg1 (by decide)
    _ = Wb m ρ c (Proc.devRef .tc main_arg1) := StableHlo.after_of_writes_sub hostOps1 _ hostOps1_writes (by decide)
    _ = Wa m ρ c (Proc.devRef .tc main_arg1) := (Wb_arr m ρ c 0).trans (((dat0 (Va m ρ) c).arrAt_in 0 rfl _).trans (A_eq0 (Va m ρ) c 0))
    _ = m ((c : Thread nD τ).loc main_arg1) := rfl

theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := Wd_of_ne m ρ c main_arg2 (by decide)
    _ = Wb m ρ c (Proc.devRef .tc main_arg2) := StableHlo.after_of_writes_sub hostOps1 _ hostOps1_writes (by decide)
    _ = Wa m ρ c (Proc.devRef .tc main_arg2) := Wb_of_ne m ρ c main_arg2 (by decide)
    _ = m ((c : Thread nD τ).loc main_arg2) := rfl

theorem Wd_main_arg3 (c : Dev nD) : Wd m ρ c (Proc.devRef .tc main_arg3) = m ((c : Thread nD τ).loc main_arg3) :=
  calc Wd m ρ c (Proc.devRef .tc main_arg3)
    _ = Wc m ρ c (Proc.devRef .tc main_arg3) := Wd_of_ne m ρ c main_arg3 (by decide)
    _ = Wb m ρ c (Proc.devRef .tc main_arg3) := StableHlo.after_of_writes_sub hostOps1 _ hostOps1_writes (by decide)
    _ = Wa m ρ c (Proc.devRef .tc main_arg3) := Wb_of_ne m ρ c main_arg3 (by decide)
    _ = m ((c : Thread nD τ).loc main_arg3) := rfl

/-! ## The proof data family and the thread state -/

/-- No pallas_call has a prefetched table. -/
abbrev hadm : (p : Fin 2) → (pcfgs (F := F) p).Adm := fun p => (cfgs p).toPCfg_adm
/-- Both passes' proof data, each at its pass's entry contents. -/
def pdats : (p : Fin 2) → (c : Dev nD) → Dat τ (Elt F) Unit ℕ (UR sig nD τ) ℕ (Pipeline.pin (pcfgs (F := F)) hadm p) c
  | ⟨0, _⟩ => fun c => dat0 (Va m ρ) c
  | ⟨1, _⟩ => fun c => dat1 (Vc m ρ) c
abbrev 𝒱h : Variants := Variants.none
abbrev Lh : GSem nD τ sig → Finset Unit := fun _ => ∅
abbrev lvh : GSem nD τ sig → Unit → ℕ := fun _ _ => 0
/-- What rides beside the buffers through every segment: the generator register at some state, nothing owed. -/
abbrev Rh (c : Dev nD) : sProp 𝕄 := iprop((∃ r, prngReg c r) ∗ ∃ W, owes (c : Thread nD τ) (0 : CellTallies nD τ sig Unit) W)
/-- The host stretch as a segment over the unscoped references from the contents after the row-sum pass. -/
abbrev hsegh : Pipeline.HostSeg (Name := ℕ) (U := UR sig nD τ) (pcfgs (F := F)) defs₀ 𝒱h Lh lvh :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wb m ρ) Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tend (c : Dev nD) : sProp 𝕄 := iprop(StableHlo.held (c : Thread nD τ) (Pipeline.ucRefs τ sig) (Wd m ρ c) ∗ ∃ r, prngReg c r)

/-! ## The passes as segments -/

set_option backward.isDefEq.respectTransparency.types false in
/-- The row-sum pass over the thread state: entered from every unscoped buffer as launched, left at `Wb`. -/
def reg0 : Pipeline.RegionSeg (pcfgs (F := F)) hadm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ Lh lvh 0 fun _ _ => rfl
  pre c := iprop(StableHlo.held (c : Thread nD τ) (Pipeline.ucRefs τ sig) (Wa m ρ c) ∗ Rh c)
  post c := iprop(StableHlo.held (c : Thread nD τ) (Pipeline.ucRefs τ sig) (Wb m ρ c) ∗ Rh c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hFb m ρ c) (hrestb m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation pass over the thread state: entered from every unscoped buffer at `Wc`, left at `Wd`. Its arrays
    are dealt out of the distinct buffers behind them (the scaled features' as two half shares) and joined back at the
    exit contents; the generator register goes into the invariant and comes out. -/
def reg1 : Pipeline.RegionSeg (pcfgs (F := F)) hadm (pdats m ρ) () defs₀ 𝒱h Lh lvh 1 where
  win := winFacts₀1
  block_pos := block_pos1
  stage_whole := stage_whole1
  K := PEmpty
  osem k := k.elim
  ho := Pipeline.OwnSemFacts.none _
  hbody c := (body_obligation1 (Vc m ρ) c).loose
  hwaits := Pipeline.hwaits_of_owed_zero _ _ _ _ Lh lvh 1 fun _ _ => rfl
  pre c := iprop(StableHlo.held (c : Thread nD τ) (Pipeline.ucRefs τ sig) (Wc m ρ c) ∗ Rh c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit : (unscopedBufs c (Vc m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (Vc m ρ c)) := by
      rw [Pipeline.unscopedBufs_split₀ (cfgs) 1 winFacts₀1.arr_unscoped c (Vc m ρ c)]
      exact sep_mono (arrays1_of_arrBufs (Vc m ρ) c (Vc m ρ c) _ fun w => A_eq1 (Vc m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Vc m ρ) c).Φ 0 from rfl]
    refine .trans ?_ (hin1 (Vc m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (Vc m ρ) c).Φ (Fin.last cfg1.N) from rfl]
    refine (hout1 (Vc m ρ) c).trans ?_
    unfold Pipeline.ΦA
    iintro ⟨Hr, Hp⟩
    isplitl [Hp]; · iexact Hp
    isplitr; · iempintro
    iexact Hr
  hexit c := by
    have hjoin : (iprop((pdats m ρ 1 c).arrays ((pdats m ρ 1 c).arrAt · cfg1.N) ∗ Pipeline.unscopedRest (Ix := Unit) (Name := ℕ) (U := UR sig nD τ) (Lvl := ℕ) spec1 c (Vc m ρ c)) : sProp 𝕄)
        ⊢ unscopedBufs c (Vd m ρ c) := by
      rw [Pipeline.unscopedBufs_split₀ (cfgs) 1 winFacts₀1.arr_unscoped c (Vd m ρ c)]
      refine sep_mono (arrBufs1_of_arrays (Vc m ρ) c (Vd m ρ c) _ (hFd m ρ c)) (Entails.of_eq ?_)
      unfold Pipeline.unscopedRest
      exact bigSep_congr fun b hb => by rw [hrestd m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsh : List (Pipeline.Seg (pcfgs (F := F)) hadm (pdats m ρ) () defs₀ 𝒱h Lh lvh) :=
  [ .region (reg0 m ρ), .host (hsegh m ρ), .region (reg1 m ρ) ]

theorem main_run (c : Dev nD) : main (F := F) c = Pipeline.Seg.run (segsh m ρ) := (main_chain c).trans (by chain_rfl)

set_option backward.isDefEq.respectTransparency.types false in
/-- THE RUN. From any memory with zero counters, every weakly fair execution of @main terminates, nothing faulting,
    and every final state holds every unscoped buffer of every core at the last boundary's contents `Wd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) hadm (pdats m ρ) () cellOf_inj emb₁ defs₀ 𝒱h Lh lvh m ρ main (segsh m ρ)
    (fun c Q => by rw [main_run m ρ c])
    (by simp only [segsh, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ Rh c)) (Tₙ := Tend m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c),
     (h c _ (mem_uc main_arg3 (by decide))).trans (Wd_main_arg3 m ρ c)⟩) (run_all m ρ)

end Cert.KernelIdeal.Hand

end
-- ==== Proof.KernelIdealArrays.lean ====
/-
  The arrays the two passes read and write, each named at its literal shape over the extended reals, at the buffer
  contents `V` a pass is entered from: for the row-sum pass the adjacency and the column of row sums it leaves; for
  the aggregation pass the adjacency, the scaled features, the inverse square-root degrees (a column), the bias (a row)
  and the output it leaves.
-/
import proofs.«173103_j28157805593140_1_alg».proof.Proof.KernelIdealBody0
import proofs.«173103_j28157805593140_1_alg».proof.Proof.KernelIdealBody1
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The adjacency as a pass finds it. -/
abbrev adjArr (c : Dev nD) : FVec Ideal S16384x16384 .f32 := V c main_arg1
/-- The scaled features as the aggregation pass finds them. -/
abbrev yArr (c : Dev nD) : FVec Ideal S16384x128 .f32 := V c main_v8
/-- The inverse square-root degrees as the aggregation pass finds them. -/
abbrev dArr (c : Dev nD) : FVec Ideal S16384x1 .f32 := V c main_v5
/-- The bias row as the aggregation pass finds it. -/
abbrev bArr (c : Dev nD) : FVec Ideal S1x128 .f32 := V c main_v9
/-- The column of row sums the row-sum pass leaves. -/
abbrev rowsumArr (c : Dev nD) : FVec Ideal S16384x1 .f32 := (dat0 V c).arrAt 1 cfg0.N
/-- The output the aggregation pass leaves. -/
abbrev outArr (c : Dev nD) : FVec Ideal S16384x128 .f32 := (dat1 V c).arrAt 5 cfg1.N

end Cert.KernelIdeal.Hand

end
-- ==== Proof.KernelIdealPieces.lean ====
/-
  What the stores leave, named by the kernels' arithmetic. The row-sum pass's one store covers the column's buffer, so
  the buffer holds the stored value itself. In the aggregation pass the accumulator is cleared and then overwritten
  whole (at column block 0) or overwritten whole (later blocks), so after a point it holds the last stored value: the
  block's product added to zero, or to what the point before left; and at the last block the output slab's buffer
  holds the stored slab computed from that total.
-/
import proofs.«173103_j28157805593140_1_alg».proof.Proof.KernelIdealBody0
import proofs.«173103_j28157805593140_1_alg».proof.Proof.KernelIdealBody1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of the whole-buffer rectangle are zero. -/
theorem offsets_zero_pieces : (![0, 0] : Fin 2 → Nat) = fun _ => 0 := funext fun a => by fin_cases a <;> rfl

/-- The column's buffer after the row-sum body holds the stored column. -/
theorem out0_1_eq (x0 : Vec F S256x16384 .f32) : out0_1 x0 = k0_pay1 x0 := by
  unfold out0_1
  rw [View.canon_unit_zero offsets_zero_pieces]
  simp only [View.ld_unit_zero (S := S256x16384) offsets_zero_pieces]

/-- At column block 0 the accumulator ends at the block's product added to the cleared accumulator. -/
theorem sout1_A_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x1 .f32) (x4 : Vec F S1x128 .f32) :
    sout1_A c i arg2 harg2 arg3 harg3 arg4 harg4 arg5 harg5 arg6 harg6 arg7 harg7 arg8 harg8 hc0 hc1 x0 x1 x2 x3 x4 = k1_pay2 x0 x1 (k1_pay1 (F := F)) := by
  unfold sout1_A
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x128) offsets_zero_pieces, View.readCov_unit_zero (S := S1024x128) _ offsets_zero_pieces]
  simp only [View.readAt_eq_ld, harg2.read_unread, harg3.read_unread, View.ld_unit_zero (S := S1024x2048) offsets_zero_pieces,
    View.ld_unit_zero (S := S2048x128) offsets_zero_pieces]

/-- At a middle column block the accumulator ends at the block's product added to what it held. -/
theorem sout1_B_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    sout1_B c i arg2 harg2 arg3 harg3 arg4 harg4 arg5 harg5 arg6 harg6 arg7 harg7 arg8 harg8 hc0 hc1 x0 x1 x2 x3 x4 xs = k1_pay2 x0 x1 xs := by
  unfold sout1_B
  rw [View.read_writes_eq_canon _ _ _ (scover1_B c i arg2 harg2 arg3 harg3 arg4 harg4 arg5 harg5 arg6 harg6 arg7 harg7 arg8 harg8 hc0 hc1 x0 x1 x2 x3 x4 xs)]
  unfold kernelRun1_B
  dsimp only
  sl_unfold_words
  rw [View.canon_unit_zero offsets_zero_pieces]
  simp only [View.readAt_eq_ld, harg2.read_unread, harg3.read_unread, harg8.read_unread,
    View.ld_unit_zero (S := S1024x2048) offsets_zero_pieces, View.ld_unit_zero (S := S2048x128) offsets_zero_pieces, View.ld_unit_zero (S := S1024x128) offsets_zero_pieces]

/-- At the last column block the accumulator ends at the block's product added to what it held, -/
theorem sout1_C_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    sout1_C c i arg2 harg2 arg3 harg3 arg4 harg4 arg5 harg5 arg6 harg6 arg7 harg7 arg8 harg8 hc0 hc1 x0 x1 x2 x3 x4 xs = k1_pay2 x0 x1 xs := by
  unfold sout1_C
  rw [View.read_writes_eq_canon _ _ _ (scover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero offsets_zero_pieces]
  simp only [View.readAt_eq_ld, harg2.read_unread, harg3.read_unread, harg8.read_unread,
    View.ld_unit_zero (S := S1024x2048) offsets_zero_pieces, View.ld_unit_zero (S := S2048x128) offsets_zero_pieces, View.ld_unit_zero (S := S1024x128) offsets_zero_pieces]

/-- and the output slab's buffer at the slab computed from that total. -/
theorem out1_C_5_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x1 .f32) (x4 : Vec F S1x128 .f32) (xs : Vec F S1024x128 .f32) :
    out1_C_5 c i arg2 harg2 arg3 harg3 arg4 harg4 arg5 harg5 arg6 harg6 arg7 harg7 arg8 harg8 hc0 hc1 x0 x1 x2 x3 x4 xs = k1_pay3 (k1_pay2 x0 x1 xs) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero offsets_zero_pieces, View.readCov_unit_zero (S := S1024x128) _ offsets_zero_pieces]
  simp only [View.readAt_eq_ld, harg2.read_unread, harg3.read_unread, harg4.read_unread, harg5.read_unread,
    harg6.read_unread, harg8.read_unread, View.ld_unit_zero (S := S1024x2048) offsets_zero_pieces,
    View.ld_unit_zero (S := S2048x128) offsets_zero_pieces, View.ld_unit_zero (S := S1024x128) offsets_zero_pieces,
    View.ld_unit_zero (S := S1024x1) offsets_zero_pieces, View.ld_unit_zero (S := S1x128) offsets_zero_pieces]

/-! ## The accumulation, point by point -/

/-- At a point of column block 0 the accumulator restarts from the block's product. -/
theorem acc1_first (c : Dev nD) (t : Fin cfg1.N) (h0 : t.val % 8 = 0) :
    (outsAt1 V c t.val t.isLt).2 = k1_pay2 (iblk1 V c 0 t) (iblk1 V c 1 t) (k1_pay1 (F := F)) := by
  have h1 : ¬t.val % 8 = 7 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- At a later column block it is what the point before left plus the block's product. -/
theorem acc1_next (c : Dev nD) (t : Fin cfg1.N) (h0 : ¬t.val % 8 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h0 h1]
    dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- At the last column block the output slab's buffer holds the slab computed from the accumulator's total. -/
theorem out1_last (c : Dev nD) (t : Fin cfg1.N) (h1 : t.val % 8 = 7) :
    (outsAt1 V c t.val t.isLt).1
      = k1_pay3 (outsAt1 V c t.val t.isLt).2 (iblk1 V c 2 t) (iblk1 V c 3 t) (iblk1 V c 4 t) := by
  have h0 : ¬t.val % 8 = 0 := by omega
  rw [outsAt1_C V c t h0 h1]
  dsimp only
  rw [sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2]
  exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2

end Cert.KernelIdeal.Hand

end
-- ==== Proof.KernelIdealPayloads.lean ====
/-
  The two kernels' arithmetic read at an entry, at the extended reals. The row-sum kernel's stored column is, row by
  row, the sum of the slab's row. The aggregation kernel clears its accumulator to zero, adds to it the product of
  the adjacency block with the scaled-feature block — a contraction over the block's 2048 columns, the change of
  number format being the identity here —, and at the last block stores
  `max (d · (total + diagonal term) + bias) 0`, the inverse square-root degree broadcast along the row and the bias
  down the column.
-/
import proofs.«173103_j28157805593140_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index over row `p` with lane `k` inserted on the summed axis is `(p, k)`. -/
theorem lift_row (p : Fin 256) (k : Fin 16384) :
    reduces_S256x16384_S256.lift (ix1 p) k = ix2 p k := by
  funext c
  match c with
  | ⟨0, _⟩ => exact Fin.ext rfl
  | ⟨1, _⟩ => exact Fin.ext rfl

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The block product's operand indices, axis by axis: the left operand is read at (output row, contraction index), the
right operand at (contraction index, output column). -/

theorem lhs_blk_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_blk_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_blk_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_blk_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator, at an entry: the sum over the block's 2048 columns of the products. -/
theorem matmul_blk_apply {φ₁ φ₂ : FTy} (a : FVec Ideal S1024x2048 φ₁) (y : FVec Ideal S2048x128 φ₂) (p : Fin 1024) (q : Fin 128) :
    FloatOps.matmul dot_S1024x2048_S2048x128_S1024x128_1_0_0_1_n_n none a y (constant (F := Ideal) S1024x128 .f32 0x00000000#32) (ix2 p q)
      = ∑ j : Fin 2048, a (ix2 p j) * y (ix2 j q) := by
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun ax => Fin.ext (by
    match ax with
    | ⟨0, _⟩ => exact lhs_blk_0 _ _
    | ⟨1, _⟩ => exact (lhs_blk_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun ax => Fin.ext (by
    match ax with
    | ⟨0, _⟩ => exact (rhs_blk_0 _ _).trans hk
    | ⟨1, _⟩ => exact rhs_blk_1 _ _)
  rw [el, er]

/-- The row-sum kernel's stored column at row `p`: the sum of the slab's row `p`. -/
theorem pay0_apply (x : Vec Ideal S256x16384 .f32) (p : Fin 256) :
    k0_pay1 (F := Ideal) x (ix2 p (0 : Fin 1)) = ∑ j : Fin 16384, x (ix2 p j) := by
  unfold k0_pay1
  refine (shapeCast_a_a1_apply _ _ p 0).trans ?_
  refine (Ideal.multiReduction_add_single x 0x00000000#32 reduces_S256x16384_S256 (.inl rfl) rfl (ix1 p)).trans ?_
  exact Finset.sum_congr rfl fun k _ => congrArg x (lift_row p k)

/-- The cleared accumulator is zero at every entry. -/
theorem pay1_apply (p : Fin 1024) (q : Fin 128) : k1_pay1 (F := Ideal) (ix2 p q) = 0 := by
  unfold k1_pay1
  refine (congrFun (shapeCast_self _ _) (ix2 p q)).trans ?_
  exact Ideal.ofBits_zero_f32

/-- The accumulator after a block: what it held plus the block's contraction. -/
theorem pay2_apply (a : Vec Ideal S1024x2048 .f32) (y : Vec Ideal S2048x128 .f32) (s : Vec Ideal S1024x128 .f32)
    (p : Fin 1024) (q : Fin 128) :
    k1_pay2 (F := Ideal) a y s (ix2 p q) = s (ix2 p q) + ∑ j : Fin 2048, a (ix2 p j) * y (ix2 j q) := by
  unfold k1_pay2
  refine (congrFun (shapeCast_self _ _) (ix2 p q)).trans ?_
  refine congrArg (s (ix2 p q) + ·) ?_
  refine (matmul_blk_apply _ _ p q).trans ?_
  refine Finset.sum_congr rfl fun j _ => congrArg (a (ix2 p j) * ·) ?_
  exact congrFun (shapeCast_self y shapeCasts_S2048x128_S2048x128) (ix2 j q)

/-- The stored output slab at an entry. -/
theorem pay3_apply (s yd : Vec Ideal S1024x128 .f32) (dv : Vec Ideal S1024x1 .f32) (bb : Vec Ideal S1x128 .f32)
    (p : Fin 1024) (q : Fin 128) :
    k1_pay3 (F := Ideal) s yd dv bb (ix2 p q)
      = max (dv (ix2 p (0 : Fin 1)) * (s (ix2 p q) + yd (ix2 p q)) + bb (ix2 (0 : Fin 1) q)) 0 := by
  have e1 : shapeCast S1024x128 yd shapeCasts_S1024x128_S1024x128 = yd := shapeCast_self _ _
  have e2 : shapeCast S1024x1 dv shapeCasts_S1024x1_S1024x1 = dv := shapeCast_self _ _
  have e3 : shapeCast S1x128 bb shapeCasts_S1x128_S1x128 = bb := shapeCast_self _ _
  have b1 := broadcastTo_a1_ab_apply dv broadcasts_S1024x1_S1024x128 p q
  have b2 := broadcastTo_1b_ab_apply bb broadcasts_S1x128_S1024x128 p q
  unfold k1_pay3
  show max (broadcastTo S1024x128 (shapeCast S1024x1 dv shapeCasts_S1024x1_S1024x1) broadcasts_S1024x1_S1024x128 (ix2 p q)
        * (s (ix2 p q) + shapeCast S1024x128 yd shapeCasts_S1024x128_S1024x128 (ix2 p q))
      + broadcastTo S1024x128 (shapeCast S1x128 bb shapeCasts_S1x128_S1x128) broadcasts_S1x128_S1024x128 (ix2 p q))
      (Ideal.ofBits .f32 0x00000000#32) = _
  rw [e1, e2, e3, b1, b2, Ideal.ofBits_zero_f32]

end Cert.KernelIdeal.Payloads

end
-- ==== Proof.KernelIdealFinal0.lean ====
/-
  The row-sum pass's result as one array. The pass's 64 points write 64 disjoint slabs of 256 rows that together cover
  the column; the slab written at point `t` holds, at its row `p`, the sum of row `256 t + p` of the adjacency. So the
  column it leaves holds at row `i` the sum of the adjacency's row `i`.
-/
import proofs.«173103_j28157805593140_1_alg».proof.Proof.KernelIdealArrays
import proofs.«173103_j28157805593140_1_alg».proof.Proof.KernelIdealPieces
import proofs.«173103_j28157805593140_1_alg».proof.Proof.KernelIdealPayloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The index maps of the pass's two windows, decided over the grid: at point `t` both blocks sit at block row `t`,
    block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The column the pass leaves, as one function of the adjacency: at row `r` the sum of the adjacency's row `r`. -/
def G0 (c : Dev nD) : FVec Ideal S16384x1 .f32 :=
  fun idx => ∑ j : Fin 16384, adjArr V c (ix2 (n0 := 16384) (idx 0) j)

/-- The slab at point `t` is rows `256 t … 256 t + 255` of the adjacency. -/
theorem slab_apply (c : Dev nD) (t : Fin cfg0.N) (p : Fin 256) (j : Fin 16384) (r : Fin 16384)
    (hr : r.val = 256 * t.val + p.val) :
    (iblk0 V c 0 t : Vec Ideal S256x16384 .f32) (ix2 p j) = adjArr V c (ix2 r j) := by
  obtain ⟨e0, e1, -, -⟩ := idx_facts0 t
  unfold iblk0
  rw [View.read_apply]
  show V c main_arg1 _ = V c main_arg1 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 16384 + 1 * j.val = j.val; rw [e1]; omega

/-- A stored column whose slab is rows `b … b + 255` of the adjacency holds, at its row `p`, the column `G0` at row
    `b + p`. -/
theorem col_apply (c : Dev nD) (x : Vec Ideal S256x16384 .f32) (b : ℕ)
    (hx : ∀ (p : Fin 256) (j : Fin 16384) (r : Fin 16384), r.val = b + p.val → x (ix2 p j) = adjArr V c (ix2 r j))
    (y : S256x1.Idx) (i : S16384x1.Idx) (hi : (i 0).val = b + (y 0).val) :
    k0_pay1 (F := Ideal) x y = G0 V c i := by
  obtain ⟨p, q, rfl⟩ : ∃ (p : Fin 256) (q : Fin 1), y = ix2 p q := ⟨y 0, y 1, eq_ix2 y⟩
  obtain rfl : q = 0 := Subsingleton.elim _ _
  rw [Payloads.pay0_apply]
  exact Finset.sum_congr rfl fun j _ => hx p j (i 0) hi

/-- A block of the column read off a whole-column function: the function at the block's embedded index. -/
theorem read_blk0 (G : FVec Ideal S16384x1 .f32) (t : Fin cfg0.N) (y : ((cfg0.win 1).xblock (grid0.coords t)).Idx) :
    ((cfg0.win 1).blk t).view.read (Elt Ideal) G y = G (((cfg0.win 1).blk t).view.emb y) := rfl

/-- The column's blocks are not cut: what is written back is the staging buffer's contents. -/
theorem cut0_apply (X : Vec Ideal S256x1 .f32) (t : Fin cfg0.N) (y : ((cfg0.win 1).xblock (grid0.coords t)).Idx) :
    (cfg0.win 1).cut (grid0.coords t) X y = X y := rfl

/-- What point `t` writes back is block `t` of `G0`. -/
theorem flushed0_eq (c : Dev nD) (t : Fin cfg0.N) :
    (dat0 V c).flushed 1 t = ((cfg0.win 1).blk t).view.read (Elt Ideal) (G0 V c) := by
  show (cfg0.win 1).cut (grid0.coords t) ((dat0 V c).after 1 t) = _
  rw [after0_1, out0_1_eq]
  obtain ⟨-, -, e2, -⟩ := idx_facts0 t
  funext y
  have hi : ((((cfg0.win 1).blk t).view.emb y) 0).val = 256 * t.val + (y 0).val := by
    show win0_1.index t (0 : Fin 2) * 256 + 1 * (y 0).val = 256 * t.val + (y 0).val
    rw [e2]; omega
  exact (cut0_apply (k0_pay1 (iblk0 V c 0 t)) t y).trans
    ((col_apply V c (iblk0 V c 0 t) (256 * t.val) (fun p j r hr => slab_apply V c t p j r hr) y
      (((cfg0.win 1).blk t).view.emb y) hi).trans (read_blk0 (G0 V c) t y).symm)

/-- An index of the column is in point `t`'s block iff each coordinate is in the block's range on its axis. -/
theorem mem_blk0 (t : Fin cfg0.N) (i : S16384x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- Row `r` of the column is in the block of point `r / 256`, which is written back. -/
theorem cover0 (i : S16384x1.Idx) :
    ∃ t : Fin cfg0.N, (cfg0.win 1).flush t = true ∧ i ∈ ((cfg0.win 1).blk t).view.set := by
  have hi0 : (i 0).val < 16384 := (i 0).isLt
  have hi1 : (i 1).val < 1 := (i 1).isLt
  have hN : cfg0.N = 64 := rfl
  obtain ⟨t, ht⟩ : ∃ t : Fin cfg0.N, t.val = (i 0).val / 256 := ⟨⟨(i 0).val / 256, by omega⟩, rfl⟩
  obtain ⟨-, -, e2, e3⟩ := idx_facts0 t
  refine ⟨t, flush0_1 t, ?_⟩
  rw [mem_blk0]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-- The column the pass leaves is `G0`. -/
theorem rowsum_eq (c : Dev nD) : rowsumArr V c = G0 V c :=
  (dat0 V c).arrAt_eq_of_cover 1 (G0 V c) (fun t _ => flushed0_eq V c t) (cover0)

/-- The column of row sums at row `i`. -/
theorem final0 (c : Dev nD) (i : Fin 16384) :
    rowsumArr V c (ix2 i (0 : Fin 1)) = ∑ j : Fin 16384, adjArr V c (ix2 i j) := by
  rw [rowsum_eq]
  rfl

end Cert.KernelIdeal.Hand

end
-- ==== Proof.KernelIdealSlab1.lean ====
/-
  The aggregation pass's stored slab, in the arrays' own coordinates. Point `t` of the 16 × 8 grid has row-slab
  `t / 8` and column block `t % 8`. After point `t` the accumulator holds, at its entry `(p, q)`, the sum over the
  columns `j < 2048 (t % 8 + 1)` of `adj (1024 (t / 8) + p, j) · y (j, q)`: at block 0 the block's contraction added to
  zero, at a later block what the point before left plus the block's contraction (an induction on the column block).
  At the last block the sum runs over all 16384 columns, and the stored slab's entry is
  `max (d i · (that sum + y (i, q)) + b q) 0` at the row `i = 1024 (t / 8) + p`.
-/
import proofs.«173103_j28157805593140_1_alg».proof.Proof.KernelIdealArrays
import proofs.«173103_j28157805593140_1_alg».proof.Proof.KernelIdealPieces
import proofs.«173103_j28157805593140_1_alg».proof.Proof.KernelIdealPayloads
import Idealize.ShloMosaic.Lib.Pipeline.Value
import Mathlib.Algebra.BigOperators.Fin
import Mathlib.Algebra.BigOperators.Group.Finset.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Slab1

/-- The printed index maps of the five input windows, decided over the grid: point `t` is at row slab `t / 8`
    and column block `t % 8`. -/
theorem idx_facts1 : ∀ t : Fin cfg1.N,
    (win1_0.index t (0 : Fin 2) = t.val / 8 ∧ win1_0.index t (1 : Fin 2) = t.val % 8)
    ∧ (win1_1.index t (0 : Fin 2) = t.val % 8 ∧ win1_1.index t (1 : Fin 2) = 0)
    ∧ (win1_2.index t (0 : Fin 2) = t.val / 8 ∧ win1_2.index t (1 : Fin 2) = 0)
    ∧ (win1_3.index t (0 : Fin 2) = t.val / 8 ∧ win1_3.index t (1 : Fin 2) = 0)
    ∧ (win1_4.index t (0 : Fin 2) = 0 ∧ win1_4.index t (1 : Fin 2) = 0) :=
  (by decide +kernel : ∀ t : Fin grid1.N, _)

/-- The adjacency block of point `t` is rows `1024 (t / 8) …`, columns `2048 (t % 8) …` of the adjacency. -/
theorem ablk_apply (c : Dev nD) (t : Fin cfg1.N) (x : S1024x2048.Idx) (k : S16384x16384.Idx)
    (hk0 : (k 0).val = t.val / 8 * 1024 + (x 0).val) (hk1 : (k 1).val = t.val % 8 * 2048 + (x 1).val) :
    (iblk1 V c 0 t : Vec Ideal S1024x2048 .f32) x = adjArr V c k := by
  obtain ⟨⟨e0, e1⟩, -⟩ := idx_facts1 t
  unfold iblk1
  rw [View.read_apply]
  show V c main_arg1 _ = V c main_arg1 _
  congr 1
  funext a
  apply Fin.ext
  match a with
  | ⟨0, _⟩ => show win1_0.index t 0 * 1024 + 1 * (x 0).val = (k 0).val; rw [e0, hk0]; omega
  | ⟨1, _⟩ => show win1_0.index t 1 * 2048 + 1 * (x 1).val = (k 1).val; rw [e1, hk1]; omega

/-- The scaled-feature block of point `t` (the contraction's operand) is rows `2048 (t % 8) …` of the scaled features. -/
theorem yblk_apply (c : Dev nD) (t : Fin cfg1.N) (x : S2048x128.Idx) (k : S16384x128.Idx)
    (hk0 : (k 0).val = t.val % 8 * 2048 + (x 0).val) (hk1 : (k 1).val = (x 1).val) :
    (iblk1 V c 1 t : Vec Ideal S2048x128 .f32) x = yArr V c k := by
  obtain ⟨-, ⟨e0, e1⟩, -⟩ := idx_facts1 t
  unfold iblk1
  rw [View.read_apply]
  show V c main_v8 _ = V c main_v8 _
  congr 1
  funext a
  apply Fin.ext
  match a with
  | ⟨0, _⟩ => show win1_1.index t 0 * 2048 + 1 * (x 0).val = (k 0).val; rw [e0, hk0]; omega
  | ⟨1, _⟩ => show win1_1.index t 1 * 128 + 1 * (x 1).val = (k 1).val; rw [e1, hk1]; omega

/-- The scaled-feature block of point `t` (the diagonal term) is rows `1024 (t / 8) …` of the scaled features. -/
theorem ydblk_apply (c : Dev nD) (t : Fin cfg1.N) (x : S1024x128.Idx) (k : S16384x128.Idx)
    (hk0 : (k 0).val = t.val / 8 * 1024 + (x 0).val) (hk1 : (k 1).val = (x 1).val) :
    (iblk1 V c 2 t : Vec Ideal S1024x128 .f32) x = yArr V c k := by
  obtain ⟨-, -, ⟨e0, e1⟩, -⟩ := idx_facts1 t
  unfold iblk1
  rw [View.read_apply]
  show V c main_v8 _ = V c main_v8 _
  congr 1
  funext a
  apply Fin.ext
  match a with
  | ⟨0, _⟩ => show win1_2.index t 0 * 1024 + 1 * (x 0).val = (k 0).val; rw [e0, hk0]; omega
  | ⟨1, _⟩ => show win1_2.index t 1 * 128 + 1 * (x 1).val = (k 1).val; rw [e1, hk1]; omega

/-- The degree block of point `t` is rows `1024 (t / 8) …` of the inverse square-root degrees. -/
theorem dblk_apply (c : Dev nD) (t : Fin cfg1.N) (x : S1024x1.Idx) (k : S16384x1.Idx)
    (hk0 : (k 0).val = t.val / 8 * 1024 + (x 0).val) (hk1 : (k 1).val = (x 1).val) :
    (iblk1 V c 3 t : Vec Ideal S1024x1 .f32) x = dArr V c k := by
  obtain ⟨-, -, -, ⟨e0, e1⟩, -⟩ := idx_facts1 t
  unfold iblk1
  rw [View.read_apply]
  show V c main_v5 _ = V c main_v5 _
  congr 1
  funext a
  apply Fin.ext
  match a with
  | ⟨0, _⟩ => show win1_3.index t 0 * 1024 + 1 * (x 0).val = (k 0).val; rw [e0, hk0]; omega
  | ⟨1, _⟩ => show win1_3.index t 1 * 1 + 1 * (x 1).val = (k 1).val; rw [e1, hk1]; omega

/-- The bias block of every point is the bias row. -/
theorem bblk_apply (c : Dev nD) (t : Fin cfg1.N) (x : S1x128.Idx) (k : S1x128.Idx)
    (hk0 : (k 0).val = (x 0).val) (hk1 : (k 1).val = (x 1).val) :
    (iblk1 V c 4 t : Vec Ideal S1x128 .f32) x = bArr V c k := by
  obtain ⟨-, -, -, -, ⟨e0, e1⟩⟩ := idx_facts1 t
  unfold iblk1
  rw [View.read_apply]
  show V c main_v9 _ = V c main_v9 _
  congr 1
  funext a
  apply Fin.ext
  match a with
  | ⟨0, _⟩ => show win1_4.index t 0 * 1 + 1 * (x 0).val = (k 0).val; rw [e0, hk0]; omega
  | ⟨1, _⟩ => show win1_4.index t 1 * 128 + 1 * (x 1).val = (k 1).val; rw [e1, hk1]; omega

/-- The adjacency block of a point, at its literal type. -/
abbrev ablk (c : Dev nD) (t : Fin cfg1.N) : Vec Ideal S1024x2048 .f32 := iblk1 V c 0 t
/-- The scaled-feature block of a point (the contraction's operand), at its literal type. -/
abbrev yblk (c : Dev nD) (t : Fin cfg1.N) : Vec Ideal S2048x128 .f32 := iblk1 V c 1 t
/-- The scaled-feature block of a point (the diagonal term), at its literal type. -/
abbrev ydblk (c : Dev nD) (t : Fin cfg1.N) : Vec Ideal S1024x128 .f32 := iblk1 V c 2 t
/-- The degree block of a point, at its literal type. -/
abbrev dblk (c : Dev nD) (t : Fin cfg1.N) : Vec Ideal S1024x1 .f32 := iblk1 V c 3 t
/-- The bias block of a point, at its literal type. -/
abbrev bblk (c : Dev nD) (t : Fin cfg1.N) : Vec Ideal S1x128 .f32 := iblk1 V c 4 t

/-- The term of the contraction at column `j` of the arrays (zero past the last column). -/
def colTerm (c : Dev nD) (i : Fin 16384) (q : Fin 128) (j : ℕ) : Ideal .f32 :=
  if h : j < 16384 then adjArr V c (ix2 i ⟨j, h⟩) * yArr V c (ix2 ⟨j, h⟩ q) else 0

/-- The contraction of a point's two blocks is the arrays' contraction over the point's 2048 columns. -/
theorem block_sum (c : Dev nD) (t : Fin cfg1.N) (p : Fin 1024) (q : Fin 128) (i : Fin 16384)
    (hi : i.val = t.val / 8 * 1024 + p.val) :
    (∑ jj : Fin 2048, ablk V c t (ix2 p jj) * yblk V c t (ix2 jj q))
      = ∑ j ∈ Finset.range 2048, colTerm V c i q (t.val % 8 * 2048 + j) := by
  have hN : t.val < 128 := lt_of_lt_of_eq t.isLt (show cfg1.N = 128 from N_1)
  rw [Finset.sum_range]
  refine Finset.sum_congr rfl fun jj _ => ?_
  have hj : jj.val < 2048 := jj.isLt
  have hlt : t.val % 8 * 2048 + jj.val < 16384 := by omega
  unfold colTerm
  rw [dif_pos hlt]
  have ea : ablk V c t (ix2 p jj) = adjArr V c (ix2 i ⟨t.val % 8 * 2048 + jj.val, hlt⟩) :=
    ablk_apply V c t (ix2 p jj) (ix2 i ⟨t.val % 8 * 2048 + jj.val, hlt⟩) hi rfl
  have ey : yblk V c t (ix2 jj q) = yArr V c (ix2 ⟨t.val % 8 * 2048 + jj.val, hlt⟩ q) :=
    yblk_apply V c t (ix2 jj q) (ix2 ⟨t.val % 8 * 2048 + jj.val, hlt⟩ q) rfl rfl
  rw [ea, ey]

/-- After a point of column block `n` the accumulator holds the contraction over the columns `j < 2048 (n + 1)`. -/
theorem acc1_sum (c : Dev nD) (n : ℕ) : ∀ (t : Fin cfg1.N), t.val % 8 = n → ∀ (p : Fin 1024) (q : Fin 128) (i : Fin 16384),
    i.val = t.val / 8 * 1024 + p.val →
    (outsAt1 V c t.val t.isLt).2 (ix2 p q) = ∑ j ∈ Finset.range ((n + 1) * 2048), colTerm V c i q j := by
  induction n with
  | zero =>
    intro t ht p q i hi
    rw [acc1_first V c t ht]
    refine (Payloads.pay2_apply (ablk V c t) (yblk V c t) (k1_pay1 (F := Ideal)) p q).trans ?_
    rw [Payloads.pay1_apply, zero_add, block_sum V c t p q i hi, ht]
    refine Finset.sum_congr (by rw [Nat.zero_add, Nat.one_mul]) fun j _ => ?_
    rw [Nat.zero_mul, Nat.zero_add]
  | succ n ih =>
    intro t ht p q i hi
    have h0 : ¬t.val % 8 = 0 := by omega
    have hpos : 0 < t.val := by omega
    have hlt' : t.val - 1 < cfg1.N := Nat.lt_of_le_of_lt (Nat.sub_le _ _) t.isLt
    rw [acc1_next V c t h0]
    refine (Payloads.pay2_apply (ablk V c t) (yblk V c t) (outsAt1 V c (t.val - 1) hlt').2 p q).trans ?_
    have ih' := ih ⟨t.val - 1, hlt'⟩ (show (t.val - 1) % 8 = n by omega) p q i
      (show i.val = (t.val - 1) / 8 * 1024 + p.val by rw [hi]; congr 2; omega)
    rw [show (outsAt1 V c (t.val - 1) hlt').2 (ix2 p q) = _ from ih', block_sum V c t p q i hi, ht,
      show (n + 1 + 1) * 2048 = (n + 1) * 2048 + 2048 by ring, Finset.sum_range_add]

end Slab1

open Slab1

/-- The slab stored at a point of the last column block, at its entry `(p, q)`, in terms of the array row
    `i = 1024 (t / 8) + p`. -/
theorem slab1 (c : Dev nD) (t : Fin cfg1.N) (h1 : t.val % 8 = 7) (p : Fin 1024) (q : Fin 128) (i : Fin 16384)
    (hi : i.val = t.val / 8 * 1024 + p.val) :
    (outsAt1 V c t.val t.isLt).1 (ix2 p q)
      = max (dArr V c (ix2 i (0 : Fin 1)) * ((∑ j : Fin 16384, adjArr V c (ix2 i j) * yArr V c (ix2 j q)) + yArr V c (ix2 i q))
          + bArr V c (ix2 (0 : Fin 1) q)) 0 := by
  rw [out1_last V c t h1]
  refine (Payloads.pay3_apply (outsAt1 V c t.val t.isLt).2 (ydblk V c t) (dblk V c t) (bblk V c t) p q).trans ?_
  have es : (outsAt1 V c t.val t.isLt).2 (ix2 p q) = ∑ j : Fin 16384, adjArr V c (ix2 i j) * yArr V c (ix2 j q) := by
    rw [acc1_sum V c 7 t h1 p q i hi, show (7 + 1) * 2048 = 16384 from rfl, Finset.sum_range]
    refine Finset.sum_congr rfl fun j _ => ?_
    unfold colTerm
    rw [dif_pos j.isLt]
  have eyd : ydblk V c t (ix2 p q) = yArr V c (ix2 i q) := ydblk_apply V c t (ix2 p q) (ix2 i q) hi rfl
  have ed : dblk V c t (ix2 p (0 : Fin 1)) = dArr V c (ix2 i (0 : Fin 1)) :=
    dblk_apply V c t (ix2 p (0 : Fin 1)) (ix2 i (0 : Fin 1)) hi rfl
  have eb : bblk V c t (ix2 (0 : Fin 1) q) = bArr V c (ix2 (0 : Fin 1) q) :=
    bblk_apply V c t (ix2 (0 : Fin 1) q) (ix2 (0 : Fin 1) q) rfl rfl
  rw [es, eyd, ed, eb]

end Cert.KernelIdeal.Hand

end
-- ==== Proof.KernelIdealFinal1.lean ====
/-
  The aggregation pass's result as one array. The output window is written back at the 16 points of the last column
  block, one slab of 1024 rows each, disjoint and together covering the output; the slab written at such a point is
  the stored slab. So the output holds at `(i, f)` the value `max (d i · (Σ_j adj (i, j) · y (j, f) + y (i, f)) + b f) 0`.
-/
import proofs.«173103_j28157805593140_1_alg».proof.Proof.KernelIdealArrays
import proofs.«173103_j28157805593140_1_alg».proof.Proof.KernelIdealSlab1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The aggregation's result as one array: at `(i, f)` the value `max (d i · (Σ_j adj (i, j) · y (j, f) + y (i, f)) + b f) 0`. -/
def G1 (c : Dev nD) : FVec Ideal S16384x128 .f32 := fun k =>
  max (dArr V c (ix2 (k 0) (0 : Fin 1)) * ((∑ j : Fin 16384, adjArr V c (ix2 (k 0) j) * yArr V c (ix2 j (k 1))) + yArr V c (ix2 (k 0) (k 1)))
          + bArr V c (ix2 (0 : Fin 1) (k 1))) 0

theorem G1_apply (c : Dev nD) (i : Fin 16384) (f : Fin 128) :
    G1 V c (ix2 i f)
      = max (dArr V c (ix2 i (0 : Fin 1)) * ((∑ j : Fin 16384, adjArr V c (ix2 i j) * yArr V c (ix2 j f)) + yArr V c (ix2 i f))
          + bArr V c (ix2 (0 : Fin 1) f)) 0 := rfl

/-- The output window's index map, decided over the grid: row slab `t / 8`, column block 0. -/
theorem idx_out : ∀ t : Fin cfg1.N, win1_5.index t (0 : Fin 2) = t.val / 8 ∧ win1_5.index t (1 : Fin 2) = 0 :=
  (by decide +kernel : ∀ t : Fin grid1.N, _)

/-- The slab stored at a point of the last column block, entry by entry, is the result array at the entry's place:
    row `1024 (t / 8) + ` the row inside the slab, the same column. -/
theorem slab_entry (c : Dev nD) (t : Fin cfg1.N) (h7 : t.val % 8 = 7) (y : S1024x128.Idx) (k : S16384x128.Idx)
    (hk0 : (k 0).val = t.val / 8 * 1024 + (y 0).val) (hk1 : (k 1).val = (y 1).val) :
    (outsAt1 V c t.val t.isLt).1 y = G1 V c k := by
  have e1 : (k 1 : Fin 128) = y 1 := Fin.ext hk1
  have ey : (outsAt1 V c t.val t.isLt).1 y = (outsAt1 V c t.val t.isLt).1 (ix2 (y 0) (y 1)) := congrArg _ (eq_ix2 y)
  refine ey.trans ((slab1 V c t h7 (y 0) (y 1) (k 0) hk0).trans ?_)
  unfold G1
  rw [e1]

/-- What a point of the last column block writes back is its block of the result array. -/
theorem flushed_out_eq (c : Dev nD) (t : Fin cfg1.N) (hf : (cfg1.win 5).flush t = true) :
    (dat1 V c).flushed 5 t = ((cfg1.win 5).blk t).view.read (Elt Ideal) (G1 V c) := by
  have h7 : t.val % 8 = 7 := (flush1_5 t).mp hf
  show (cfg1.win 5).cut (grid1.coords t) ((dat1 V c).after 5 t) = _
  rw [after1_5]
  funext y
  show (outsAt1 V c t.val t.isLt).1 y = G1 V c (((cfg1.win 5).blk t).view.emb y)
  obtain ⟨e0, e1⟩ := idx_out t
  refine slab_entry V c t h7 y (((cfg1.win 5).blk t).view.emb y) ?_ ?_
  · show win1_5.index t (0 : Fin 2) * 1024 + 1 * (y 0).val = t.val / 8 * 1024 + (y 0).val
    rw [e0]; omega
  · show win1_5.index t (1 : Fin 2) * 128 + 1 * (y 1).val = (y 1).val
    rw [e1]; omega

/-- An index of the output is in point `t`'s block iff each coordinate is in the block's range on its axis. -/
theorem mem_blk_out (t : Fin cfg1.N) (i : S16384x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v10).slice (win1_5.rect t)).set ↔ _
  rw [View.set_slice_whole, Rect.mem_set_unit]
  exact Iff.rfl

/-- Every entry of the output is in the block of a point that writes back: row `r` is in the slab of the point
    `8 (r / 1024) + 7`, the last column block of row slab `r / 1024`. -/
theorem cover_out (i : S16384x128.Idx) :
    ∃ t : Fin cfg1.N, (cfg1.win 5).flush t = true ∧ i ∈ ((cfg1.win 5).blk t).view.set := by
  have hN : cfg1.N = 128 := by decide +kernel
  have hi0 : (i 0).val < 16384 := (i 0).isLt
  have hi1 : (i 1).val < 128 := (i 1).isLt
  obtain ⟨t, ht⟩ : ∃ t : Fin cfg1.N, t.val = (i 0).val / 1024 * 8 + 7 := ⟨⟨(i 0).val / 1024 * 8 + 7, by rw [hN]; omega⟩, rfl⟩
  obtain ⟨e0, e1⟩ := idx_out t
  refine ⟨t, (flush1_5 t).mpr (by omega), ?_⟩
  rw [mem_blk_out]
  intro a
  match a with
  | ⟨0, _⟩ =>
    show win1_5.index t (0 : Fin 2) * 1024 ≤ (i 0).val ∧ (i 0).val < win1_5.index t (0 : Fin 2) * 1024 + 1024
    rw [e0]; omega
  | ⟨1, _⟩ =>
    show win1_5.index t (1 : Fin 2) * 128 ≤ (i 1).val ∧ (i 1).val < win1_5.index t (1 : Fin 2) * 128 + 128
    rw [e1]; omega

/-- The output the aggregation pass leaves is the result array. -/
theorem outArr_eq (c : Dev nD) : outArr V c = G1 V c :=
  (dat1 V c).arrAt_eq_of_cover 5 (G1 V c) (flushed_out_eq V c) cover_out

/-- The output at the entry `(i, f)`. -/
theorem final1 (c : Dev nD) (i : Fin 16384) (f : Fin 128) :
    outArr V c (ix2 i f)
      = max (dArr V c (ix2 i (0 : Fin 1)) * ((∑ j : Fin 16384, adjArr V c (ix2 i j) * yArr V c (ix2 j f)) + yArr V c (ix2 i f))
          + bArr V c (ix2 (0 : Fin 1) f)) 0 := by
  rw [outArr_eq]
  rfl

end Cert.KernelIdeal.Hand

end
-- ==== Proof.KernelIdealHost.lean ====
/-
  The host operations between the two passes, read at an entry at the extended reals. From the row sums `r` (a
  column) they make the inverse square-root degree `d i = 1 / √(r i + 1)`, the feature transform
  `xw i f = Σ_c X i c · W c f`, the scaled features `y i f = d i · xw i f`, and the bias laid as a row; they write
  none of the arguments and not the row sums.
-/
import proofs.«173103_j28157805593140_1_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostStretch

open Cert.KernelIdeal Cert.KernelIdeal.Gen Idealize.ShloMosaic Idealize.ShloMosaic.TcCoe Idealize.ShloMosaic.ValueIdx

variable (Wv : Valuation τ sig (Elt Ideal))

/-- The buffers the stretch reads, each at its literal type: the row sums, the features, the weights, the bias. -/
abbrev rowsumOf : FVec Ideal S16384x1 .f32 := Wv (Proc.devRef .tc main_v0)
abbrev xOf : FVec Ideal S16384x128 .f32 := Wv (Proc.devRef .tc main_arg0)
abbrev wOf : FVec Ideal S128x128 .f32 := Wv (Proc.devRef .tc main_arg2)
abbrev bOf : FVec Ideal S128 .f32 := Wv (Proc.devRef .tc main_arg3)
/-- The buffers the aggregation pass reads after the stretch, each at its literal type. -/
abbrev dAfter : FVec Ideal S16384x1 .f32 := StableHlo.after (hostOps1 (F := Ideal)) Wv (Proc.devRef .tc main_v5)
abbrev yAfter : FVec Ideal S16384x128 .f32 := StableHlo.after (hostOps1 (F := Ideal)) Wv (Proc.devRef .tc main_v8)
abbrev bAfter : FVec Ideal S1x128 .f32 := StableHlo.after (hostOps1 (F := Ideal)) Wv (Proc.devRef .tc main_v9)

open Idealize.ShloMosaic.StableHlo

/-- The word 0x3F800000 denotes one. -/
theorem one_word : Ideal.ofBits .f32 0x3F800000#32 = 1 := by
  simp [Ideal.ofBits, Ideal.ieee, -EReal.coe_mul]; norm_num

/-- The column of ones. -/
abbrev onesCol : FVec Ideal S16384x1 .f32 :=
  broadcastInDim S16384x1 ![] bcast_S_S16384x1 (constant (F := Ideal) S_ .f32 0x3F800000#32)

/-- The inverse square-root degree as one term of the row sums. -/
abbrev dTerm : FVec Ideal S16384x1 .f32 :=
  Host.divf (F := Ideal) onesCol (Host.sqrt (F := Ideal) (addf (rowsumOf Wv) onesCol))

/-- The feature transform as one term of the features and the weights. -/
abbrev xwTerm : FVec Ideal S16384x128 .f32 :=
  Host.dotGeneral (F := Ideal) dot_S16384x128_S128x128_S16384x128_1_0_0_1_n_n none (xOf Wv) (wOf Wv)

theorem dAfter_eq : dAfter Wv = dTerm Wv := by
  dsimp only [dAfter, hostOps1]
  after_results

theorem yAfter_eq : yAfter Wv
    = mulf (broadcastInDim S16384x128 ![0, 1] bcast_S16384x1_S16384x128_0_1 (dTerm Wv)) (xwTerm Wv) := by
  dsimp only [yAfter, hostOps1]
  after_results

theorem bAfter_eq : bAfter Wv = shapeCast S1x128 (bOf Wv) shapeCasts_S128_S1x128 := by
  dsimp only [bAfter, hostOps1]
  after_results
  rfl

/-- Every entry of the column of ones is one. -/
theorem onesCol_apply (j : S16384x1.Idx) : onesCol j = 1 := by
  unfold onesCol
  rw [broadcastInDim_apply _ bcast_S_S16384x1 _ j (fun a => a.elim0) (fun a => a.elim0)]
  exact one_word

/-- The inverse square-root degree term at an entry. -/
theorem dTerm_apply (i : Fin 16384) :
    dTerm Wv (ix2 i (0 : Fin 1)) = Ideal.div 1 (Ideal.sqrt (rowsumOf Wv (ix2 i (0 : Fin 1)) + 1)) := by
  show FloatOps.hostDivf (onesCol (ix2 i (0 : Fin 1)))
      (FloatOps.hostUnary .sqrt (FloatOps.addf (rowsumOf Wv (ix2 i (0 : Fin 1))) (onesCol (ix2 i (0 : Fin 1))))) = _
  rw [onesCol_apply, Ideal.hostDivf_def, Ideal.hostUnary_sqrt_def, Ideal.addf_def]

theorem lhs_xw_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs_xw_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_xw_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_xw_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- The feature transform term at an entry: the sum over the contracted axis. -/
theorem xwTerm_apply (i : Fin 16384) (f : Fin 128) :
    xwTerm Wv (ix2 i f) = ∑ c : Fin 128, xOf Wv (ix2 i c) * wOf Wv (ix2 c f) := by
  unfold xwTerm
  generalize xOf Wv = x
  generalize wOf Wv = w
  simp only [Host.dotGeneral]
  rw [Ideal.dotGeneral_apply, ← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have el : dot_S16384x128_S128x128_S16384x128_1_0_0_1_n_n.lhsIdx (ix2 i f) ((ValueIdx.contrEquiv1 dot_S16384x128_S128x128_S16384x128_1_0_0_1_n_n 128 rfl rfl).symm k) = ix2 i k := funext fun a => Fin.ext (by
    match a with
    | ⟨0, _⟩ => exact lhs_xw_0 _ _
    | ⟨1, _⟩ => exact (lhs_xw_1 _ _).trans hk)
  have er : dot_S16384x128_S128x128_S16384x128_1_0_0_1_n_n.rhsIdx (ix2 i f) ((ValueIdx.contrEquiv1 dot_S16384x128_S128x128_S16384x128_1_0_0_1_n_n 128 rfl rfl).symm k) = ix2 k f := funext fun a => Fin.ext (by
    match a with
    | ⟨0, _⟩ => exact (rhs_xw_0 _ _).trans hk
    | ⟨1, _⟩ => exact rhs_xw_1 _ _)
  rw [el, er]

/-- The inverse square-root degree after the stretch, from the row sums before it. -/
theorem d_apply (i : Fin 16384) :
    dAfter Wv (ix2 i (0 : Fin 1)) = Ideal.div 1 (Ideal.sqrt (rowsumOf Wv (ix2 i (0 : Fin 1)) + 1)) := by
  rw [dAfter_eq, dTerm_apply]

/-- The scaled features after the stretch. -/
theorem y_apply (i : Fin 16384) (f : Fin 128) :
    yAfter Wv (ix2 i f)
      = Ideal.div 1 (Ideal.sqrt (rowsumOf Wv (ix2 i (0 : Fin 1)) + 1))
        * ∑ c : Fin 128, xOf Wv (ix2 i c) * wOf Wv (ix2 c f) := by
  rw [yAfter_eq]
  show FloatOps.mulf (broadcastInDim S16384x128 ![0, 1] bcast_S16384x1_S16384x128_0_1 (dTerm Wv) (ix2 i f)) (xwTerm Wv (ix2 i f)) = _
  rw [broadcastInDim_apply _ bcast_S16384x1_S16384x128_0_1 (dTerm Wv) (ix2 i f) (ix2 i (0 : Fin 1)) (fun a => match a with
    | ⟨0, _⟩ => by show i.val = if (16384 : Nat) = 1 then 0 else i.val; rw [if_neg (by decide)]
    | ⟨1, _⟩ => by show 0 = if (1 : Nat) = 1 then 0 else f.val; rw [if_pos rfl]),
    dTerm_apply, xwTerm_apply, Ideal.mulf_def]

/-- The bias laid as a row. -/
theorem b_apply (f : Fin 128) : bAfter Wv (ix2 (0 : Fin 1) f) = bOf Wv (ix1 f) := by
  rw [bAfter_eq]
  exact shapeCast_apply _ shapeCasts_S128_S1x128 (ix2 (0 : Fin 1) f) (ix1 f) (by
    rw [Shape.rowMajor_val_two, Shape.rowMajor_val_one]; show f.val = 0 * 128 + f.val; omega)

/-- The stretch does not write the adjacency. -/
theorem adj_kept : StableHlo.after (hostOps1 (F := Ideal)) Wv (Proc.devRef .tc main_arg1) = Wv (Proc.devRef .tc main_arg1) := by
  refine StableHlo.after_of_forall_not_mem _ Wv ?_
  rw [← List.forall_iff_forall_mem]
  simp only [hostOps1, List.Forall, StableHlo.nullary_writes, StableHlo.unary_writes, StableHlo.binary_writes,
    StableHlo.reshape_writes, Finset.mem_singleton]
  exact ⟨StableHlo.devRef_ne_of_ne (by decide), StableHlo.devRef_ne_of_ne (by decide), StableHlo.devRef_ne_of_ne (by decide),
    StableHlo.devRef_ne_of_ne (by decide), StableHlo.devRef_ne_of_ne (by decide), StableHlo.devRef_ne_of_ne (by decide),
    StableHlo.devRef_ne_of_ne (by decide), StableHlo.devRef_ne_of_ne (by decide), StableHlo.devRef_ne_of_ne (by decide),
    StableHlo.devRef_ne_of_ne (by decide), StableHlo.devRef_ne_of_ne (by decide)⟩

end Cert.KernelIdeal.HostStretch

end
-- ==== Proof.Spec.lean ====
/-
  The mathematics of the dense graph-convolution layer, stated once over the extended reals.

  Inputs: features `X` (16384 × 128), adjacency `A` (16384 × 16384), weights `W` (128 × 128), bias `b` (128).
  With `xw = X · W`:

  * the two-pass arrangement: `d i = 1 / √(Σ_j A i j + 1)`, `y j f = d j · xw j f`,
    `out i f = max (d i · (Σ_j A i j · y j f + y i f) + b f) 0`;
  * the normalised-adjacency arrangement: `deg i = Σ_j (A i j + δ i j)`, `d i = 1 / √(deg i)`,
    `out i f = max (Σ_j ((A i j + δ i j) · d i · d j) · xw j f + b f) 0`.

  `deg i = Σ_j A i j + 1` holds in any commutative monoid, so the two `d` are one function outright. The two
  outputs agree once every entry is a real number and every degree is positive: then every `d i` is a positive
  real, every quantity is real, and the identity is distributivity of a real product over a finite real sum
  together with splitting the diagonal term `δ i j` off the sum.
-/
import Idealize.ShloMosaic.PureOps.Ideal
import Mathlib.Algebra.BigOperators.Fin
import Mathlib.Data.EReal.Operations

noncomputable section

namespace Cert.Spec

open Idealize.ShloMosaic

variable (X : Fin 16384 → Fin 128 → EReal) (A : Fin 16384 → Fin 16384 → EReal)
  (W : Fin 128 → Fin 128 → EReal) (b : Fin 128 → EReal)

/-- The feature transform `X · W`. -/
def xw (i : Fin 16384) (f : Fin 128) : EReal := ∑ c : Fin 128, X i c * W c f

/-- A row's sum of the adjacency. -/
def rowsum (i : Fin 16384) : EReal := ∑ j : Fin 16384, A i j

/-- The two-pass arrangement's inverse square-root degree: the self-loop added to the row sum as `+ 1`. -/
def dK (i : Fin 16384) : EReal := Ideal.div 1 (Ideal.sqrt (rowsum A i + 1))

/-- The row-scaled features. -/
def yK (j : Fin 16384) (f : Fin 128) : EReal := dK A j * xw X W j f

/-- The two-pass arrangement's output. -/
def outK (i : Fin 16384) (f : Fin 128) : EReal :=
  max (dK A i * ((∑ j : Fin 16384, A i j * yK X A W j f) + yK X A W i f) + b f) 0

/-- The identity matrix's entry. -/
def eye (i j : Fin 16384) : EReal := if i = j then 1 else 0

/-- A row's degree with the self-loop: the sum of the adjacency with the identity added entrywise. -/
def deg (i : Fin 16384) : EReal := ∑ j : Fin 16384, (A i j + eye i j)

/-- The normalised-adjacency arrangement's inverse square-root degree. -/
def dR (i : Fin 16384) : EReal := Ideal.div 1 (Ideal.sqrt (deg A i))

/-- The normalised-adjacency arrangement's output. -/
def outR (i : Fin 16384) (f : Fin 128) : EReal :=
  max ((∑ j : Fin 16384, ((A i j + eye i j) * dR A i * dR A j) * xw X W j f) + b f) 0

/-- A coercion of reals passes through a finite sum. -/
theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The identity matrix's entry is the coercion of the real Kronecker delta. -/
theorem eye_coe (i j : Fin 16384) : eye i j = (((if i = j then 1 else 0 : ℝ)) : EReal) := by
  unfold eye
  split_ifs <;> simp

/-- The degree with the self-loop is the row sum plus one: the diagonal term is the only one of the
    identity's row that is not zero. -/
theorem deg_eq (i : Fin 16384) : deg A i = rowsum A i + 1 := by
  unfold deg rowsum eye
  rw [Finset.sum_add_distrib, Finset.sum_ite_eq Finset.univ i (fun _ => (1 : EReal))]
  simp

/-- So the two inverse square-root degrees are one function. -/
theorem dR_eq_dK (i : Fin 16384) : dR A i = dK A i := by
  unfold dR dK
  rw [deg_eq]

/-- At a positive real, one over the square root is the real reciprocal of the real square root. -/
theorem div_one_sqrt_coe {s : ℝ} (hs : 0 < s) :
    Ideal.div 1 (Ideal.sqrt (s : EReal)) = (((Real.sqrt s)⁻¹ : ℝ) : EReal) := by
  rw [Ideal.sqrt_coe, if_neg (not_lt.mpr hs.le),
    Ideal.div_coe (ne_of_gt (Real.sqrt_pos.mpr hs)) 1, one_mul, one_div]

/-- The real identity: a product distributes over the finite sum and the diagonal term splits off. -/
theorem real_identity {ι : Type*} [Fintype ι] [DecidableEq ι] (a : ι → ι → ℝ) (d t : ι → ℝ) (β : ℝ)
    (i : ι) :
    d i * ((∑ j, a i j * (d j * t j)) + d i * t i) + β
      = (∑ j, ((a i j + (if i = j then 1 else 0)) * d i * d j) * t j) + β := by
  have h : ∀ j, ((a i j + (if i = j then (1 : ℝ) else 0)) * d i * d j) * t j
      = d i * (a i j * (d j * t j)) + (if i = j then d i * (d j * t j) else 0) := by
    intro j
    split_ifs <;> ring
  rw [Finset.sum_congr rfl (fun j _ => h j), Finset.sum_add_distrib,
    Finset.sum_ite_eq Finset.univ i (fun j => d i * (d j * t j)), ← Finset.mul_sum,
    if_pos (Finset.mem_univ i), mul_add]

/-- The two arrangements agree where every entry is real and every degree is positive. -/
theorem outK_eq_outR
    (hX : ∀ i c, ∃ r : ℝ, X i c = (r : EReal)) (hA : ∀ i j, ∃ r : ℝ, A i j = (r : EReal))
    (hW : ∀ c f, ∃ r : ℝ, W c f = (r : EReal)) (hb : ∀ f, ∃ r : ℝ, b f = (r : EReal))
    (hdeg : ∀ i, 0 < deg A i) (i : Fin 16384) (f : Fin 128) :
    outK X A W b i f = outR X A W b i f := by
  choose x hx using hX
  choose a ha using hA
  choose w hw using hW
  choose β hβ using hb
  -- every row sum, hence every degree, is real
  have hrow : ∀ k, rowsum A k = ((∑ j, a k j : ℝ) : EReal) := by
    intro k
    unfold rowsum
    rw [Finset.sum_congr rfl (fun j _ => ha k j), coe_sum]
  have hpos : ∀ k, 0 < (∑ j, a k j) + 1 := by
    intro k
    have h := hdeg k
    rw [deg_eq, hrow, ← EReal.coe_one, ← EReal.coe_add, ← EReal.coe_zero, EReal.coe_lt_coe_iff] at h
    exact h
  -- so every inverse square-root degree is real
  have hd : ∀ k, dK A k = (((Real.sqrt ((∑ j, a k j) + 1))⁻¹ : ℝ) : EReal) := by
    intro k
    unfold dK
    rw [hrow, ← EReal.coe_one, ← EReal.coe_add, EReal.coe_one, div_one_sqrt_coe (hpos k)]
  -- and so is every transformed feature
  have hxw : ∀ k, xw X W k f = ((∑ c, x k c * w c f : ℝ) : EReal) := by
    intro k
    unfold xw
    rw [Finset.sum_congr rfl (fun c _ => by rw [hx k c, hw c f, ← EReal.coe_mul]), coe_sum]
  unfold outK outR yK
  simp only [dR_eq_dK, hd, hxw, ha, hβ, eye_coe, ← EReal.coe_mul, ← EReal.coe_add, coe_sum]
  rw [real_identity a (fun k => (Real.sqrt ((∑ j, a k j) + 1))⁻¹) (fun k => ∑ c, x k c * w c f) (β f) i]

end Cert.Spec

end
-- ==== Proof.KernelIdealValue.lean ====
/-
  The kernel program's result as one function of its arguments. The last boundary's contents at the output buffer are
  what the aggregation pass leaves; the pass reads the adjacency (untouched by everything before it), the scaled
  features, the inverse square-root degrees and the bias row as the host stretch makes them from the row sums and the
  arguments; and the row sums are what the row-sum pass leaves from the adjacency. Put together, the output at
  `(i, f)` is the two-pass arrangement `Spec.outK` of the launch contents of the four arguments.
-/
import proofs.«173103_j28157805593140_1_alg».proof.Proof.KernelIdealRun
import proofs.«173103_j28157805593140_1_alg».proof.Proof.KernelIdealFinal0
import proofs.«173103_j28157805593140_1_alg».proof.Proof.KernelIdealFinal1
import proofs.«173103_j28157805593140_1_alg».proof.Proof.KernelIdealHost
import proofs.«173103_j28157805593140_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The four arguments at launch, each at its literal shape, and the result at the end. -/
abbrev Xm (c : Dev nD) : FVec Ideal S16384x128 .f32 := m ((c : Thread nD τ).loc main_arg0)
abbrev Am (c : Dev nD) : FVec Ideal S16384x16384 .f32 := m ((c : Thread nD τ).loc main_arg1)
abbrev Wm (c : Dev nD) : FVec Ideal S128x128 .f32 := m ((c : Thread nD τ).loc main_arg2)
abbrev bm (c : Dev nD) : FVec Ideal S128 .f32 := m ((c : Thread nD τ).loc main_arg3)
abbrev resultArr (c : Dev nD) : FVec Ideal S16384x128 .f32 := Wd m ρ c (Proc.devRef .tc main_v10)

/-- The row sums the host stretch reads are the adjacency's row sums. -/
theorem rowsum_entry (c : Dev nD) (i : Fin 16384) :
    HostStretch.rowsumOf (Wb m ρ c) (ix2 i (0 : Fin 1)) = Cert.Spec.rowsum (fun i j => Am m c (ix2 i j)) i := by
  have h : HostStretch.rowsumOf (Wb m ρ c) = rowsumArr (Va m ρ) c := Wb_arr m ρ c 1
  rw [h, final0 (Va m ρ) c i]
  rfl

/-- The inverse square-root degree the aggregation pass reads. -/
theorem d_entry (c : Dev nD) (i : Fin 16384) :
    dArr (Vc m ρ) c (ix2 i (0 : Fin 1)) = Cert.Spec.dK (fun i j => Am m c (ix2 i j)) i := by
  show HostStretch.dAfter (Wb m ρ c) (ix2 i (0 : Fin 1)) = _
  rw [HostStretch.d_apply, rowsum_entry]
  rfl

/-- The scaled features the aggregation pass reads. -/
theorem y_entry (c : Dev nD) (j : Fin 16384) (f : Fin 128) :
    yArr (Vc m ρ) c (ix2 j f)
      = Cert.Spec.yK (fun i c' => Xm m c (ix2 i c')) (fun i j => Am m c (ix2 i j)) (fun c' f => Wm m c (ix2 c' f)) j f := by
  show HostStretch.yAfter (Wb m ρ c) (ix2 j f) = _
  rw [HostStretch.y_apply, rowsum_entry]
  have hx : HostStretch.xOf (Wb m ρ c) = Xm m c := Wb_of_ne m ρ c main_arg0 (by decide)
  have hw : HostStretch.wOf (Wb m ρ c) = Wm m c := Wb_of_ne m ρ c main_arg2 (by decide)
  rw [hx, hw]
  rfl

/-- The adjacency the aggregation pass reads is the argument. -/
theorem adj_entry (c : Dev nD) : adjArr (Vc m ρ) c = Am m c := by
  show StableHlo.after (hostOps1 (F := Ideal)) (Wb m ρ c) (Proc.devRef .tc main_arg1) = _
  rw [HostStretch.adj_kept]
  exact (Wb_arr m ρ c 0).trans (((dat0 (Va m ρ) c).arrAt_in 0 rfl _).trans (A_eq0 (Va m ρ) c 0))

/-- The bias row the aggregation pass reads. -/
theorem b_entry (c : Dev nD) (f : Fin 128) : bArr (Vc m ρ) c (ix2 (0 : Fin 1) f) = bm m c (ix1 f) := by
  show HostStretch.bAfter (Wb m ρ c) (ix2 (0 : Fin 1) f) = _
  rw [HostStretch.b_apply]
  have hb : HostStretch.bOf (Wb m ρ c) = bm m c := Wb_of_ne m ρ c main_arg3 (by decide)
  rw [hb]

/-- THE KERNEL'S VALUE: the result at `(i, f)` is the two-pass arrangement of the arguments. -/
theorem kernel_value (c : Dev nD) (i : Fin 16384) (f : Fin 128) :
    resultArr m ρ c (ix2 i f)
      = Cert.Spec.outK (fun i c' => Xm m c (ix2 i c')) (fun i j => Am m c (ix2 i j)) (fun c' f => Wm m c (ix2 c' f))
          (fun f => bm m c (ix1 f)) i f := by
  have h1 : resultArr m ρ c = outArr (Vc m ρ) c := Wd_out m ρ c
  have hs : (∑ j : Fin 16384, Am m c (ix2 i j) * yArr (Vc m ρ) c (ix2 j f))
      = ∑ j : Fin 16384, Am m c (ix2 i j) * Cert.Spec.yK (fun i c' => Xm m c (ix2 i c')) (fun i j => Am m c (ix2 i j))
          (fun c' f => Wm m c (ix2 c' f)) j f :=
    Finset.sum_congr rfl fun j _ => by rw [y_entry]
  rw [h1, final1 (Vc m ρ) c i f, d_entry, b_entry, adj_entry, y_entry m ρ c i f, hs]
  rfl

end Cert.KernelIdeal.Hand

end
-- ==== Proof.RefValue.lean ====
/-
  The reference program's result, read at an entry, is the normalised-adjacency arrangement `Spec.outR` of the
  argument arrays: the identity matrix is an equality test of the row and column counters, the degree is the row sum
  of the adjacency plus that identity, its inverse square root scales rows and columns, the features are transformed
  first and aggregated by the normalised adjacency, the bias is added along the rows and the result clamped at zero.
-/
import proofs.«173103_j28157805593140_1_alg».proof.Proof.Gen.ReferenceIdeal.Read
import proofs.«173103_j28157805593140_1_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-- The word 0x3F800000 denotes one. -/
theorem ofBits_one_f32 : Ideal.ofBits .f32 0x3F800000#32 = 1 := by
  simp [Ideal.ofBits, Ideal.ieee, -EReal.coe_mul]; norm_num

/-- Two counters below 2^32 are equal as words only when they are equal. -/
theorem ofNat_inj (i j : Fin 16384) (h : BitVec.ofNat 32 i.val = BitVec.ofNat 32 j.val) : i = j := by
  have := congrArg BitVec.toNat h
  simp only [BitVec.toNat_ofNat] at this
  apply Fin.ext
  have hi := i.isLt
  have hj := j.isLt
  omega

/-- The identity matrix: the equality test of the row counter (plus the zero word) and the column counter, read as a number. -/
theorem eye_apply (i j : Fin 16384) : val_main_v5 (F := Ideal) (ix2 i j) = Cert.Spec.eye i j := by
  rw [val_main_v5_apply, val_main_v4_apply, val_main_v3_apply, val_main_v0_apply, val_main_v2_apply, val_main_c_apply,
    val_main_v1_apply]
  show (((IntOp.cmpi .eq (IntOp.addi (BitVec.ofNat 32 i.val) 0#32) (BitVec.ofNat 32 j.val)).toNat : ℝ) : EReal) = _
  unfold Cert.Spec.eye
  have h0 : IntOp.addi (BitVec.ofNat 32 i.val) 0#32 = BitVec.ofNat 32 i.val := by
    unfold IntOp.addi; exact BitVec.add_zero _
  rw [h0]
  by_cases h : i = j
  · subst h
    have : IntOp.cmpi .eq (BitVec.ofNat 32 i.val) (BitVec.ofNat 32 i.val) = 1#1 := by
      unfold IntOp.cmpi
      simp only [beq_self_eq_true]
      rfl
    rw [if_pos rfl, this]
    norm_num
  · rw [if_neg h]
    have hne : BitVec.ofNat 32 i.val ≠ BitVec.ofNat 32 j.val := fun hh => h (ofNat_inj i j hh)
    have : IntOp.cmpi .eq (BitVec.ofNat 32 i.val) (BitVec.ofNat 32 j.val) = 0#1 := by
      unfold IntOp.cmpi
      simp only [beq_eq_false_iff_ne.mpr hne]
      rfl
    rw [this]
    norm_num

/-- The adjacency with the identity added, at an entry. -/
theorem adj_apply (x1 : FVec Ideal S16384x16384 .f32) (i j : Fin 16384) :
    val_main_v6 (F := Ideal) x1 (ix2 i j) = x1 (ix2 i j) + Cert.Spec.eye i j := by
  rw [val_main_v6_apply, eye_apply]; rfl

/-- The degree: the row sum of the adjacency with the identity added, from the zero word. -/
theorem deg_apply (x1 : FVec Ideal S16384x16384 .f32) (i : Fin 16384) :
    val_main_v7 (F := Ideal) x1 (ix1 i) = Cert.Spec.deg (fun i j => x1 (ix2 i j)) i := by
  rw [val_main_v7_apply, val_main_cst_apply, Ideal.ofBits_def, Ideal.ofBits_zero_f32, zero_add]
  unfold Cert.Spec.deg
  refine Finset.sum_congr rfl fun k _ => ?_
  have e : idx_main_v7 (ix1 i) k = ix2 i k :=
    funext fun a => Fin.ext (by match a with | ⟨0, _⟩ => rfl | ⟨1, _⟩ => rfl)
  rw [e, adj_apply]

/-- The inverse square root of the degree. -/
theorem d_apply (x1 : FVec Ideal S16384x16384 .f32) (i : Fin 16384) :
    val_main_v10 (F := Ideal) x1 (ix1 i) = Cert.Spec.dR (fun i j => x1 (ix2 i j)) i := by
  rw [val_main_v10_apply, val_main_v9_apply, val_main_cst_0_apply, val_main_v8_apply, deg_apply, Ideal.ofBits_def,
    ofBits_one_f32, Ideal.hostDivf_def, Ideal.hostUnary_sqrt_def]
  rfl

/-- The inverse square root of the degree, spread along the rows. -/
theorem drow_apply (x1 : FVec Ideal S16384x16384 .f32) (i j : Fin 16384) :
    val_main_v12 (F := Ideal) x1 (ix2 i j) = Cert.Spec.dR (fun i j => x1 (ix2 i j)) i := by
  rw [val_main_v12_apply, val_main_v11_apply]
  have e : idx_main_v11 (idx_main_v12 (ix2 i j)) = ix1 i :=
    funext fun a => Fin.ext (by match a with | ⟨0, _⟩ => rfl)
  rw [e, d_apply]

/-- The inverse square root of the degree, spread along the columns. -/
theorem dcol_apply (x1 : FVec Ideal S16384x16384 .f32) (i j : Fin 16384) :
    val_main_v15 (F := Ideal) x1 (ix2 i j) = Cert.Spec.dR (fun i j => x1 (ix2 i j)) j := by
  rw [val_main_v15_apply, val_main_v14_apply]
  have e : idx_main_v14 (idx_main_v15 (ix2 i j)) = ix1 j :=
    funext fun a => Fin.ext (by match a with | ⟨0, _⟩ => rfl)
  rw [e, d_apply]

/-- The normalised adjacency at an entry. -/
theorem norm_apply (x1 : FVec Ideal S16384x16384 .f32) (i j : Fin 16384) :
    val_main_v16 (F := Ideal) x1 (ix2 i j)
      = (x1 (ix2 i j) + Cert.Spec.eye i j) * Cert.Spec.dR (fun i j => x1 (ix2 i j)) i
          * Cert.Spec.dR (fun i j => x1 (ix2 i j)) j := by
  rw [val_main_v16_apply, val_main_v13_apply, adj_apply, drow_apply, dcol_apply]
  rfl

/-- The transformed features at an entry. -/
theorem xw_apply (x0 : FVec Ideal S16384x128 .f32) (x2 : FVec Ideal S128x128 .f32) (j : Fin 16384) (f : Fin 128) :
    val_main_v17 (F := Ideal) x0 x2 (ix2 j f)
      = Cert.Spec.xw (fun i c => x0 (ix2 i c)) (fun c f => x2 (ix2 c f)) j f := by
  rw [val_main_v17_apply]
  unfold Cert.Spec.xw
  refine Finset.sum_congr rfl fun k _ => ?_
  have el : lidx_main_v17 (ix2 j f) k = ix2 j k :=
    funext fun a => Fin.ext (by match a with | ⟨0, _⟩ => rfl | ⟨1, _⟩ => rfl)
  have er : ridx_main_v17 (ix2 j f) k = ix2 k f :=
    funext fun a => Fin.ext (by match a with | ⟨0, _⟩ => rfl | ⟨1, _⟩ => rfl)
  rw [el, er]

/-- The bias spread along the rows. -/
theorem bias_apply (x3 : FVec Ideal S128 .f32) (i : Fin 16384) (f : Fin 128) :
    val_main_v20 (F := Ideal) x3 (ix2 i f) = x3 (ix1 f) := by
  rw [val_main_v20_apply, val_main_v19_apply]
  have e : idx_main_v19 (idx_main_v20 (ix2 i f)) = ix1 f :=
    funext fun a => Fin.ext (by match a with | ⟨0, _⟩ => rfl)
  rw [e]

/-- The aggregation by the normalised adjacency at an entry. -/
theorem agg_apply (x0 : FVec Ideal S16384x128 .f32) (x1 : FVec Ideal S16384x16384 .f32) (x2 : FVec Ideal S128x128 .f32)
    (i : Fin 16384) (f : Fin 128) :
    val_main_v18 (F := Ideal) x0 x1 x2 (ix2 i f)
      = ∑ j : Fin 16384, ((x1 (ix2 i j) + Cert.Spec.eye i j) * Cert.Spec.dR (fun i j => x1 (ix2 i j)) i
          * Cert.Spec.dR (fun i j => x1 (ix2 i j)) j)
          * Cert.Spec.xw (fun i c => x0 (ix2 i c)) (fun c f => x2 (ix2 c f)) j f := by
  rw [val_main_v18_apply]
  refine Finset.sum_congr rfl fun k _ => ?_
  have el : lidx_main_v18 (ix2 i f) k = ix2 i k :=
    funext fun a => Fin.ext (by match a with | ⟨0, _⟩ => rfl | ⟨1, _⟩ => rfl)
  have er : ridx_main_v18 (ix2 i f) k = ix2 k f :=
    funext fun a => Fin.ext (by match a with | ⟨0, _⟩ => rfl | ⟨1, _⟩ => rfl)
  rw [el, er, norm_apply, xw_apply]

/-- The reference's last stage at the entry `(i, f)` is `Spec.outR` of the argument arrays read entry by entry. -/
theorem ref_apply (x0 : FVec Ideal S16384x128 .f32) (x1 : FVec Ideal S16384x16384 .f32) (x2 : FVec Ideal S128x128 .f32)
    (x3 : FVec Ideal S128 .f32) (i : Fin 16384) (f : Fin 128) :
    val_main_v22 (F := Ideal) x0 x1 x2 x3 (ix2 i f)
      = Cert.Spec.outR (fun i c => x0 (ix2 i c)) (fun i j => x1 (ix2 i j)) (fun c f => x2 (ix2 c f)) (fun f => x3 (ix1 f)) i f := by
  rw [val_main_v22_apply, val_main_call0_v0_apply, val_main_call0_cst_apply, val_main_v21_apply, agg_apply, bias_apply,
    Ideal.ofBits_def, Ideal.ofBits_zero_f32, Ideal.maximumf_def, Ideal.addf_def]
  rfl

end Cert.RefValue

end
-- ==== Proof.PreDecode.lean ====
/-
  What the precondition says of the argument arrays at the extended reals: every entry of every array is a real
  number (its absolute value is below +∞), and every row's degree — the row sum of the adjacency with the identity
  added entrywise — is positive.

  The precondition is a conjunction of five "for all entries" tests. Four say `|x| < +∞` of every entry of one array:
  an extended real with `max x (-x) < ⊤` is neither `⊤` nor `⊥`, so it is a real. The fifth says of every row `i` that
  `0 < 0 + Σ_j (A i j + e i j)`, where `e i j` is the word compare "row number = column number" read as an unsigned
  integer: 1 on the diagonal and 0 off it, since two numbers below 16384 are equal exactly when their 32-bit words are.
-/
import proofs.«173103_j28157805593140_1_alg».proof.Pre_finite_inputs
import proofs.«173103_j28157805593140_1_alg».proof.Proof.Spec
import Idealize.ShloMosaic.Lib.ValueIdx
import Idealize.ShloMosaic.Lib.ReduceAll
import Idealize.ShloMosaic.Lib.IdealHost
import Idealize.ShloMosaic.PureOps.Ideal.Laws

noncomputable section

namespace Cert.PreDecode

open Cert.Pre_finite_inputs Idealize.ShloMosaic Idealize.ShloMosaic.ValueIdx

/-- The f32 pattern `0x7F800000` is +∞. -/
theorem ofBits_inf_f32 : Ideal.ofBits .f32 0x7F800000#32 = ⊤ := by simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [ofBits_inf_f32] at h
  have h' : max x (-x) < ⊤ := by
    by_contra hc
    have : FloatOps.cmpf (F := Ideal) (φ := .f32) .olt (FloatOps.hostAbsf (F := Ideal) (φ := .f32) x) (⊤ : EReal)
        = 0#1 := by
      show BitVec.ofBool (decide (max x (-x) < ⊤)) = 0#1
      rw [decide_eq_false hc]; rfl
    rw [this] at h; exact absurd h (by decide)
  induction x using EReal.rec with
  | bot => simp at h'
  | coe r => exact ⟨r, rfl⟩
  | top => simp at h'

/-- The scalar shape has one index. -/
local instance : Subsingleton S_.Idx := ⟨fun a b => funext fun d => d.elim0⟩

/-- A comparison "greater than zero" that came out 1 says the left side is positive. -/
theorem pos_of_ogt (a : EReal) (h : FloatOps.cmpf (F := Ideal) (φ := .f32) .ogt a (0 : EReal) = 1#1) : 0 < a := by
  by_contra hc
  have : FloatOps.cmpf (F := Ideal) (φ := .f32) .ogt a (0 : EReal) = 0#1 := by
    show BitVec.ofBool (decide ((0 : EReal) < a)) = 0#1
    rw [decide_eq_false hc]; rfl
  rw [this] at h; exact absurd h (by decide)

/-- A "for all entries" test of `|x| < +∞` that came out 1 says every entry of `x` is a real number. -/
theorem all_real {s : Shape} {axes : List (Fin s.rank)} (x : FVec Ideal s .f32) (hb : S_.BroadcastsInDim s ![])
    (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) := by
  have e := Host.reduce_andi_all _ _ hr hu ix0 h i
  rw [cmpf_apply, broadcastInDim_scalar_apply, constant_apply] at e
  exact real_of_abs_lt _ e

/-- Two numbers below 16384 are equal exactly when their 32-bit words are. -/
theorem word_eq_iff (a b : Nat) (ha : a < 16384) (hb : b < 16384) : BitVec.ofNat 32 a = BitVec.ofNat 32 b ↔ a = b := by
  constructor
  · intro e
    have := congrArg BitVec.toNat e
    rw [BitVec.toNat_ofNat, BitVec.toNat_ofNat, Nat.mod_eq_of_lt (by omega), Nat.mod_eq_of_lt (by omega)] at this
    exact this
  · intro e; rw [e]

/-- The identity entry the precondition builds: the compare of the row word (plus the zero word) with the column word,
    read as an unsigned integer, is the identity matrix's entry. -/
theorem eye_word (i j : Fin 16384) :
    FloatOps.uitofp (F := Ideal) .f32 (IntOp.cmpi .eq (IntOp.addi (BitVec.ofNat 32 i.val) 0#32) (BitVec.ofNat 32 j.val))
      = Cert.Spec.eye i j := by
  unfold Cert.Spec.eye
  show (((IntOp.cmpi .eq (IntOp.addi (BitVec.ofNat 32 i.val) 0#32) (BitVec.ofNat 32 j.val)).toNat : ℝ) : EReal) = _
  unfold IntOp.cmpi IntOp.addi
  rw [BitVec.add_zero]
  by_cases hij : i = j
  · subst hij; simp
  · have : ¬ BitVec.ofNat 32 i.val = BitVec.ofNat 32 j.val := fun e =>
      hij (Fin.ext ((word_eq_iff _ _ i.isLt j.isLt).1 e))
    rw [if_neg hij]
    simp [this]

/-- The sum along a row from the zero word, at the extended reals: the sum over the columns. -/
theorem rowsum_apply (y : FVec Ideal S16384x16384 .f32) (hr : S16384x16384.ReducesTo [1] S16384) (hu : 0 < S_.numel)
    (i : Fin 16384) :
    Host.reduceAdd (F := Ideal) y (constant (F := Ideal) S_ .f32 0x00000000#32) hr hu (ix1 i)
      = ∑ k : Fin 16384, y (ix2 i k) := by
  rw [hostReduceAdd_apply, Ideal.hostReduceAdd_single hr (by decide), constant_apply, Ideal.ofBits_zero_f32, zero_add]
  refine Finset.sum_congr rfl fun k _ => ?_
  exact congrArg y (funext fun a => Fin.ext (by match a with | ⟨0, _⟩ => rfl | ⟨1, _⟩ => rfl))

variable [Cert.Pre_finite_inputs.Facts]

/-- The printed precondition, all ones, gives: every entry real, every degree positive. -/
theorem pre_decode (x0 : FVec Ideal S16384x128 .f32) (x1 : FVec Ideal S16384x16384 .f32) (x2 : FVec Ideal S128x128 .f32)
    (x3 : FVec Ideal S128 .f32) (h : Cert.Pre_finite_inputs.fn (F := Ideal) x0 x1 x2 x3 = fun _ => 1#1) :
    (∀ (i : Fin 16384) (c : Fin 128), ∃ r : ℝ, x0 (ix2 i c) = (r : EReal))
      ∧ (∀ (i j : Fin 16384), ∃ r : ℝ, x1 (ix2 i j) = (r : EReal))
      ∧ (∀ (c f : Fin 128), ∃ r : ℝ, x2 (ix2 c f) = (r : EReal))
      ∧ (∀ (f : Fin 128), ∃ r : ℝ, x3 (ix1 f) = (r : EReal))
      ∧ (∀ i : Fin 16384, 0 < Cert.Spec.deg (fun i j => x1 (ix2 i j)) i) := by
  have h0 := congrFun h ValueIdx.ix0
  unfold Cert.Pre_finite_inputs.fn Cert.Pre_finite_inputs.fn_part1 at h0
  dsimp only at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  clear h0 h1234 h123 h12
  refine ⟨fun i c => all_real x0 _ _ _ h1 (ix2 i c), fun i j => all_real x1 _ _ _ h2 (ix2 i j),
    fun c f => all_real x2 _ _ _ h3 (ix2 c f), fun f => all_real x3 _ _ _ h4 (ix1 f), fun i => ?_⟩
  have e := Host.reduce_andi_all _ _ _ _ ix0 h5 (ix1 i)
  rw [cmpf_apply, broadcastInDim_scalar_apply, constant_apply, Ideal.ofBits_zero_f32, rowsum_apply] at e
  have e' := pos_of_ogt _ e
  unfold Cert.Spec.deg
  refine lt_of_lt_of_eq e' (Finset.sum_congr rfl fun k _ => ?_)
  show x1 (ix2 i k) + _ = x1 (ix2 i k) + _
  exact congrArg (x1 (ix2 i k) + ·) (eye_word i k)

end Cert.PreDecode

end
-- ==== Proof.lean ====
/-
  A dense graph-convolution layer, `relu (D^{-1/2} (A + I) D^{-1/2} · (X · W) + b)` with `D` the row sums of `A + I`,
  computed by a two-pass kernel program and by a plain reference, proved equal over the extended reals.

  The kernel program never forms `A + I` nor the normalised adjacency. Its first pass sums the rows of `A`; host
  operations make `d = 1 / √(rowsum + 1)` and the scaled features `y = d · (X · W)`; its second pass accumulates
  `A · y` over eight column blocks and finishes with `max (d · (A · y + y) + b) 0`. The reference forms `A + I`, its
  row sums, the normalised adjacency `(A + I) · d · dᵀ` and `max (that · (X · W) + b) 0`.

  The two agree where every entry is real and every row sum of `A + I` is positive — the domain on which the
  reference's `1 / √·` is defined —: there every `d i` is a positive real and the identity is distributivity over a
  finite real sum with the diagonal term split off (`Spec.outK_eq_outR`). The precondition says exactly that
  (`PreDecode.pre_decode`). The kernel program's result is read off its run (`KernelIdeal.Hand.kernel_value`), the
  reference's off its own (`RefValue.ref_apply`).

  The frames: each kernel program's run terminates with every unscoped buffer at the fold of its three items from
  the launch memory, which keeps every argument; the reference's run is its operations' composed term, the result
  dropped. No rewrite separates the kernel program from its idealization, so nothing is owed for it.
-/
import proofs.«173103_j28157805593140_1_alg».proof.Defs
import proofs.«173103_j28157805593140_1_alg».proof.Proof.Gen.Kernel
import proofs.«173103_j28157805593140_1_alg».proof.Proof.Gen.KernelIdeal
import proofs.«173103_j28157805593140_1_alg».proof.Proof.Gen.ReferenceIdeal
import proofs.«173103_j28157805593140_1_alg».proof.Proof.Gen.Pre_finite_inputs
import proofs.«173103_j28157805593140_1_alg».proof.Proof.Gen.ReferenceIdeal.Run
import proofs.«173103_j28157805593140_1_alg».proof.Proof.Gen.ReferenceIdeal.Read
import proofs.«173103_j28157805593140_1_alg».proof.Proof.KernelRun
import proofs.«173103_j28157805593140_1_alg».proof.Proof.KernelIdealValue
import proofs.«173103_j28157805593140_1_alg».proof.Proof.RefValue
import proofs.«173103_j28157805593140_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one function of the arguments: the kernel program at the two-pass arrangement, the
    reference at the normalised-adjacency arrangement, equal where the precondition holds. -/
theorem algebraic : Cert.algebraic_KernelIdeal_ReferenceIdeal := by
  intro m ρ m' ρ' hpre hagree
  refine ⟨fun c => Cert.KernelIdeal.Hand.resultArr m ρ c, ?_, ?_⟩
  · exact (θ_run Cert.KernelIdeal.defs _ _).mono (fun r h c =>
      ⟨h c _ (Cert.KernelIdeal.Hand.mem_uc Cert.KernelIdeal.main_v10 (by decide)),
       (h c _ (Cert.KernelIdeal.Hand.mem_uc Cert.KernelIdeal.main_arg0 (by decide))).trans (Cert.KernelIdeal.Hand.Wd_main_arg0 m ρ c),
       (h c _ (Cert.KernelIdeal.Hand.mem_uc Cert.KernelIdeal.main_arg1 (by decide))).trans (Cert.KernelIdeal.Hand.Wd_main_arg1 m ρ c),
       (h c _ (Cert.KernelIdeal.Hand.mem_uc Cert.KernelIdeal.main_arg2 (by decide))).trans (Cert.KernelIdeal.Hand.Wd_main_arg2 m ρ c),
       (h c _ (Cert.KernelIdeal.Hand.mem_uc Cert.KernelIdeal.main_arg3 (by decide))).trans (Cert.KernelIdeal.Hand.Wd_main_arg3 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, (hagree c).1, (hagree c).2.1, (hagree c).2.2.1, (hagree c).2.2.2]
    obtain ⟨hX, hA, hW, hb, hdeg⟩ := Cert.PreDecode.pre_decode _ _ _ _ (hpre c)
    funext j
    obtain ⟨i, f, rfl⟩ : ∃ (i : Fin 16384) (f : Fin 128), j = ix2 i f := ⟨j 0, j 1, eq_ix2 j⟩
    rw [Cert.RefValue.ref_apply]
    refine Eq.trans ?_ (Cert.KernelIdeal.Hand.kernel_value m ρ c i f).symm
    exact (Cert.Spec.outK_eq_outR _ _ _ _ hX hA hW hb hdeg i f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
